-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![2, 256, 512]⟩ (Layout.meshBlock [2, 2] ![[0], [], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x256x256 : Shape := ⟨3, ![1, 256, 256]⟩
abbrev S_ : Shape := ⟨0, ![]⟩

class Facts : Prop where
  bcast_S_S1x256x256 : S_.BroadcastsInDim S1x256x256 (![] : Fin 0 → Fin S1x256x256.rank)
  reducesTo_S1x256x256_S_d0_1_2 : S1x256x256.ReducesTo [0, 1, 2] S_
  h_S_ : 0 < S_.numel

variable [Facts]

def fn {F : FTy → Type} [FloatOps F] (main_arg0 : FVec F S1x256x256 .f32) : IVec S_ 1 :=
  let main_v0 : FVec F S1x256x256 .f32 := Host.absf main_arg0
  let main_cst : FVec F S_ .f32 := constant S_ .f32 0x7F800000#32
  let main_v1 : FVec F S1x256x256 .f32 := broadcastInDim S1x256x256 ![] bcast_S_S1x256x256 main_cst
  let main_v2 : IVec S1x256x256 1 := cmpf .olt main_v0 main_v1
  let main_c : IVec S_ 1 := constantI S_ 1 1#1
  let main_v3 : IVec S_ 1 := (fun x v => Host.reduce IntOp.andi x v reducesTo_S1x256x256_S_d0_1_2 h_S_) main_v2 main_c
  main_v3
-- ==== Pre_finite_inputs_ReferenceIdeal.lean ====
abbrev S2x256x512 : Shape := ⟨3, ![2, 256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel

variable [Facts]

def fn {F : FTy → Type} [FloatOps F] (main_arg0 : FVec F S2x256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  main_v3
-- ==== Kernel.lean ====
abbrev S1x256x256 : Shape := ⟨3, ![1, 256, 256]⟩
abbrev S256x512 : Shape := ⟨2, ![256, 512]⟩
abbrev S256x256 : Shape := ⟨2, ![256, 256]⟩
abbrev S3 : Shape := ⟨1, ![3]⟩
abbrev S_ : Shape := ⟨0, ![]⟩
abbrev S1 : Shape := ⟨1, ![1]⟩

abbrev nBuf : Space → Nat
  | .hbm => 2
  | .vmem => 6
  | .smem => 0
  | _ => 0

abbrev bufTy : (tb : Table) → Fin (tcTables nBuf tb) → BufTy
  | .hbm, ⟨0, _⟩ => ⟨S1x256x256, .f32⟩
  | .hbm, ⟨1, _⟩ => ⟨S256x512, .bf16⟩
  | .local _ .vmem, ⟨0, _⟩ => ⟨S1x256x256, .f32⟩
  | .local _ .vmem, ⟨1, _⟩ => ⟨S256x512, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | _, _ => ⟨S1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_7 : BitVec 32 := 2#32
  let v11 : BitVec 32 := Scalar.muli v6 c2_i32_7
  let v12 : BitVec 32 := Scalar.addi c0_i32 v11
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_8 : BitVec 32 := 1#32
  let v13 : BitVec 32 := Scalar.muli v5 c1_i32_8
  let v14 : BitVec 32 := Scalar.addi v12 v13
  v14.toNat
def k0_dev2 (d0 : Dev nD) : Nat :=
  let c0_i32_11 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_10 : BitVec 32 := 2#32
  let v15 : BitVec 32 := Scalar.muli v2 c2_i32_10
  let v16 : BitVec 32 := Scalar.addi c0_i32_11 v15
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_12 : BitVec 32 := 1#32
  let v17 : BitVec 32 := Scalar.muli v7 c1_i32_12
  let v18 : BitVec 32 := Scalar.addi v16 v17
  v18.toNat
def k0_dev3 (d0 : Dev nD) : Nat :=
  let c0_i32_15 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_14 : BitVec 32 := 2#32
  let v19 : BitVec 32 := Scalar.muli v8 c2_i32_14
  let v20 : BitVec 32 := Scalar.addi c0_i32_15 v19
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_16 : BitVec 32 := 1#32
  let v21 : BitVec 32 := Scalar.muli v9 c1_i32_16
  let v22 : BitVec 32 := Scalar.addi v20 v21
  v22.toNat
def k0_dev4 (d0 : Dev nD) : Nat :=
  let c0_i32_24 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_23 : BitVec 32 := 2#32
  let v29 : BitVec 32 := Scalar.muli v6 c2_i32_23
  let v30 : BitVec 32 := Scalar.addi c0_i32_24 v29
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v31 : BitVec 32 := Scalar.muli v5 c1_i32_25
  let v32 : BitVec 32 := Scalar.addi v30 v31
  v32.toNat
def k0_dev5 (d0 : Dev nD) : Nat :=
  let c0_i32_29 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_28 : BitVec 32 := 2#32
  let v37 : BitVec 32 := Scalar.muli v2 c2_i32_28
  let v38 : BitVec 32 := Scalar.addi c0_i32_29 v37
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_30 : BitVec 32 := 1#32
  let v39 : BitVec 32 := Scalar.muli v7 c1_i32_30
  let v40 : BitVec 32 := Scalar.addi v38 v39
  v40.toNat
def k0_dev6 (d0 : Dev nD) : Nat :=
  let c0_i32_34 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_33 : BitVec 32 := 2#32
  let v45 : BitVec 32 := Scalar.muli v8 c2_i32_33
  let v46 : BitVec 32 := Scalar.addi c0_i32_34 v45
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_35 : BitVec 32 := 1#32
  let v47 : BitVec 32 := Scalar.muli v9 c1_i32_35
  let v48 : BitVec 32 := Scalar.addi v46 v47
  v48.toNat
def k0_off1 (d0 : Dev nD) : Fin 2 → Nat :=
  let c0_47 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v53 : BitVec 32 := Scalar.muli v5 c256_i32
  let v65 : Index := Scalar.indexCast v53
  ![0, v65.toNat]
def k0_off2 (d0 : Dev nD) : Fin 2 → Nat :=
  let c0_62 : Index := 0#32
  let c1_i32_36 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v54 : BitVec 32 := Scalar.subi c1_i32_36 v5
  let c256_i32_37 : BitVec 32 := 256#32
  let v55 : BitVec 32 := Scalar.muli v54 c256_i32_37
  let v82 : Index := Scalar.indexCast v55
  ![0, v82.toNat]
abbrev stage0_0 : Fin 1 → Memref sig .tc .vmem S1x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S256x256_S256x256_0_0 : (Rect.unit (s := S256x256) ![0, 0] S256x256.size inb_S256x256_S256x256_0_0).PackedRows (EltTy.packing .bf16)
  hamt_3 : (3#32 : BitVec 32).msb = false
  inb_S3_S1_0 : ∀ a, (![0] : Fin 1 → Nat) a + S1.size a ≤ S3.size a
  squeezes_S1_S_ : S1.Squeezes S_
  inb_S3_S1_1 : ∀ a, (![1] : Fin 1 → Nat) a + S1.size a ≤ S3.size a
  inb_S3_S1_2 : ∀ a, (![2] : Fin 1 → Nat) a + S1.size a ≤ S3.size a
  hcc0_scratch4 : 2 + S3.numel ≤ 8
  hcc0_scratch5 : 5 + S3.numel ≤ 8
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off1_inb : ∀ d0 : Dev nD, ∀ a, (k0_off1 d0) a + S256x256.size a ≤ S256x512.size a
  k0_off1_packedbf16 : ∀ d0 : Dev nD, (Rect.unit (s := S256x512) (k0_off1 d0) S256x256.size (k0_off1_inb d0)).PackedRows (EltTy.packing .bf16)
  k0_off2_inb : ∀ d0 : Dev nD, ∀ a, (k0_off2 d0) a + S256x256.size a ≤ S256x512.size a
  k0_off2_packedbf16 : ∀ d0 : Dev nD, (Rect.unit (s := S256x512) (k0_off2 d0) S256x256.size (k0_off2_inb d0)).PackedRows (EltTy.packing .bf16)
  hstage0_0 : ∀ j, (stage0_0 j).IsWhole
  hstage0_1 : ∀ j, (stage0_1 j).IsWhole

variable [Facts₀]

abbrev cc0_scratch4 : DmaSems sig S3 := SemArray.consecutive 2 S3 hcc0_scratch4
abbrev cc0_scratch5 : DmaSems sig S3 := SemArray.consecutive 5 S3 hcc0_scratch5

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x256x512 : Shape := ⟨3, ![2, 256, 512]⟩
abbrev S_ : Shape := ⟨0, ![]⟩
abbrev S256x512 : Shape := ⟨2, ![256, 512]⟩

abbrev nBuf : Space → Nat
  | .hbm => 4
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S_, .f32⟩
  | .hbm, ⟨2, _⟩ => ⟨S256x512, .f32⟩
  | .hbm, ⟨3, _⟩ => ⟨S256x512, .bf16⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S2x256x512_S256x512_d0 : S2x256x512.ReducesTo [0] S256x512
  h_S_ : 0 < S_.numel
  bitsLt_bf16_f32 : FTy.bits .bf16 < FTy.bits .f32

variable [Facts₀]

class Facts : Prop extends Facts₀ where

variable [Facts]
-- ==== Proof.KernelIdealSched.lean ====
/-
  The protocol of the four-device exchange, as a schedule of rounds.

  The mesh is 2 × 2 and device `c` sits at (c / 2, c % 2). Each device has three peers, numbered as the kernel
  numbers its copies: peer 0 differs in the first coordinate (c xor 2), peer 1 in the second (c xor 1), peer 2 in both
  (3 - c). Each is an involution, so "the device whose peer k is c" is again peer k of c.

  Per device there are seven semaphores in play, each with a single round (round 0):
  * the barrier semaphore: three duties, duty k one unit signalled by peer k, whose payload is peer k's k-th landing
    buffer (at any contents) together with the fact that peer k's k-th receive cell has reached round 0 — exactly
    what this device needs in order to copy into that buffer;
  * send cell k (k = 0, 1, 2): one duty, the copy's credit, paid by the device itself once the source is read; its
    payload is the share of the source buffer lent to that copy;
  * receive cell k: one duty, the copy's credit, paid by peer k; its payload is this device's k-th landing buffer
    holding what peer k sent, namely peer k's own block cast to the narrow type.
-/
import proofs.«900318_g7700000000000319_dist_rsx_agy_m256_n256_v7x_xy2x2_bf16_1_alg».proof.Defs
import proofs.«900318_g7700000000000319_dist_rsx_agy_m256_n256_v7x_xy2x2_bf16_1_alg».proof.Proof.Gen.KernelIdeal
import proofs.«900318_g7700000000000319_dist_rsx_agy_m256_n256_v7x_xy2x2_bf16_1_alg».proof.Proof.Gen.KernelIdeal.Skeleton
import proofs.«900318_g7700000000000319_dist_rsx_agy_m256_n256_v7x_xy2x2_bf16_1_alg».proof.Proof.Gen.KernelIdeal.Launch
import Idealize.ShloMosaic.Lib.Pipeline.Launch
import Idealize.ShloMosaic.Lib.Pipeline.Kit
import Idealize.ShloMosaic.Lib.Pipeline.FrameBody
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the exchange's (duties named by `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The peers -/

/-- Peer `k` of device `c`: flip the first mesh coordinate (k = 0), the second (k = 1), or both (k = 2). -/
def peer (k : Fin 3) (c : Dev nD) : Dev nD :=
  match k with
  | 0 => ⟨(c.val + 2) % 4, Nat.mod_lt _ (by decide)⟩
  | 1 => ⟨c.val + 1 - 2 * (c.val % 2), by have h : c.val < 4 := c.isLt; show _ < 4; omega⟩
  | 2 => ⟨3 - c.val, by have h : c.val < 4 := c.isLt; show _ < 4; omega⟩

theorem peer_peer (k : Fin 3) (c : Dev nD) : peer k (peer k c) = c := by revert k c; decide
theorem peer_ne (k : Fin 3) (c : Dev nD) : peer k c ≠ c := by revert k c; decide
theorem peer_inj (k : Fin 3) {a b : Dev nD} (h : peer k a = peer k b) : a = b := by
  rw [← peer_peer k a, h, peer_peer]

def peerEquiv (k : Fin 3) : Dev nD ≃ Dev nD := ⟨peer k, peer k, peer_peer k, peer_peer k⟩

/-- The kernel's device chains: signals 1–3 and copies 4–6 address peers 0, 1, 2 in that order. -/
theorem dev1_eq (c : Dev nD) : (⟨k0_dev1 c, k0_dev1_lt c⟩ : Dev nD) = peer 0 c := by revert c; decide
theorem dev2_eq (c : Dev nD) : (⟨k0_dev2 c, k0_dev2_lt c⟩ : Dev nD) = peer 1 c := by revert c; decide
theorem dev3_eq (c : Dev nD) : (⟨k0_dev3 c, k0_dev3_lt c⟩ : Dev nD) = peer 2 c := by revert c; decide
theorem dev4_eq (c : Dev nD) : (⟨k0_dev4 c, k0_dev4_lt c⟩ : Dev nD) = peer 0 c := by revert c; decide
theorem dev5_eq (c : Dev nD) : (⟨k0_dev5 c, k0_dev5_lt c⟩ : Dev nD) = peer 1 c := by revert c; decide
theorem dev6_eq (c : Dev nD) : (⟨k0_dev6 c, k0_dev6_lt c⟩ : Dev nD) = peer 2 c := by revert c; decide

/-! ## The memrefs and the semaphores -/

abbrev xM : Memref sig .tc .vmem S1x256x256 .f32 := Memref.whole cc0_stg0_0
abbrev oM : Memref sig .tc .vmem S256x512 .bf16 := Memref.whole cc0_stg1_0
/-- The source of the three copies: this device's block in the narrow type. -/
abbrev sM : Memref sig .tc .vmem S256x256 .bf16 := Memref.whole cc0_scratch0
/-- The landing buffers, one per peer. -/
abbrev rRef : Fin 3 → Ref sig .tc
  | 0 => cc0_scratch1 | 1 => cc0_scratch2 | 2 => cc0_scratch3
abbrev rM0 : Memref sig .tc .vmem S256x256 .bf16 := Memref.whole cc0_scratch1
abbrev rM1 : Memref sig .tc .vmem S256x256 .bf16 := Memref.whole cc0_scratch2
abbrev rM2 : Memref sig .tc .vmem S256x256 .bf16 := Memref.whole cc0_scratch3

/-- The runtime's barrier semaphore of collective id 0 (not scoped to the launch). -/
abbrev barS : Sem sig := (SemArray.scalar (sig.barrier 0 rfl) : Sems sig S_).sem
/-- The send and receive DMA semaphores, as the body slices them out of its two arrays of three. -/
abbrev sendS0 : DmaSems sig S_ := (cc0_scratch4.slice (Rect.unit (s := S3) ![0] S1.size Facts₀.inb_S3_S1_0)).squeeze S_ Facts₀.squeezes_S1_S_
abbrev sendS1 : DmaSems sig S_ := (cc0_scratch4.slice (Rect.unit (s := S3) ![1] S1.size Facts₀.inb_S3_S1_1)).squeeze S_ Facts₀.squeezes_S1_S_
abbrev sendS2 : DmaSems sig S_ := (cc0_scratch4.slice (Rect.unit (s := S3) ![2] S1.size Facts₀.inb_S3_S1_2)).squeeze S_ Facts₀.squeezes_S1_S_
abbrev recvS0 : DmaSems sig S_ := (cc0_scratch5.slice (Rect.unit (s := S3) ![0] S1.size Facts₀.inb_S3_S1_0)).squeeze S_ Facts₀.squeezes_S1_S_
abbrev recvS1 : DmaSems sig S_ := (cc0_scratch5.slice (Rect.unit (s := S3) ![1] S1.size Facts₀.inb_S3_S1_1)).squeeze S_ Facts₀.squeezes_S1_S_
abbrev recvS2 : DmaSems sig S_ := (cc0_scratch5.slice (Rect.unit (s := S3) ![2] S1.size Facts₀.inb_S3_S1_2)).squeeze S_ Facts₀.squeezes_S1_S_

/-- Which of a device's seven semaphores: the barrier, the k-th send, the k-th receive. -/
inductive Role where
  | bar : Role
  | send : Fin 3 → Role
  | recv : Fin 3 → Role
  deriving DecidableEq

abbrev sendSem : Fin 3 → DmaSem sig
  | 0 => sendS0.sem | 1 => sendS1.sem | 2 => sendS2.sem
abbrev recvSem : Fin 3 → DmaSem sig
  | 0 => recvS0.sem | 1 => recvS1.sem | 2 => recvS2.sem

abbrev roleSem : Role → SemLoc sig
  | .bar => .reg barS
  | .send k => .dma (sendSem k)
  | .recv k => .dma (recvSem k)

/-- The role a semaphore plays, if any. -/
def roleOf (sm : SemLoc sig) : Option Role :=
  if sm = .reg barS then some .bar
  else if sm = .dma (sendSem 0) then some (.send 0)
  else if sm = .dma (sendSem 1) then some (.send 1)
  else if sm = .dma (sendSem 2) then some (.send 2)
  else if sm = .dma (recvSem 0) then some (.recv 0)
  else if sm = .dma (recvSem 1) then some (.recv 1)
  else if sm = .dma (recvSem 2) then some (.recv 2)
  else none

theorem roleOf_roleSem (r : Role) : roleOf (roleSem r) = some r := by
  cases r with
  | bar => decide
  | send k => fin_cases k <;> decide
  | recv k => fin_cases k <;> decide

theorem roleSem_injective : Function.Injective roleSem := fun a b h => by
  have := congrArg roleOf h
  rw [roleOf_roleSem, roleOf_roleSem] at this
  exact Option.some.inj this

abbrev cell (c : Dev nD) (r : Role) : GSem nD τ sig := ((c : Thread nD τ), roleSem r)

theorem cell_eq_iff {a b : Dev nD} {r r' : Role} : Iff (cell a r = cell b r') (a = b ∧ r = r') :=
  ⟨fun h => ⟨Fin.ext (congrArg (fun g : GSem nD τ sig => g.1.1.val) h), roleSem_injective (congrArg Prod.snd h)⟩,
   fun h => by rw [h.1, h.2]⟩

/-- The credit of one whole 256 × 256 narrow block. -/
abbrev N : ℕ := (sM : Memref sig .tc .vmem S256x256 .bf16).view.dmaCredit
theorem N_pos : 0 < N := View.dmaCredit_pos _ (by decide)

/-! ## Contents -/

/-- Device `c`'s block of the input, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- What device `c` sends to each of its peers: its block, cast to the narrow type. -/
def sent (c : Dev nD) : (cc0_scratch0 : Ref sig .tc).ty.Contents (Elt F) := k0_pay1 (xstg m ρ c)

abbrev rM : Fin 3 → Memref sig .tc .vmem S256x256 .bf16
  | 0 => rM0 | 1 => rM1 | 2 => rM2

/-- What lands in device `c`'s `k`-th landing buffer: what peer `k` sent. -/
def landed : (k : Fin 3) → (c : Dev nD) → Buf (Elt F) ((rM k).view.loc (c : Thread nD τ))
  | 0, c => sent m ρ (peer 0 c)
  | 1, c => sent m ρ (peer 1 c)
  | 2, c => sent m ρ (peer 2 c)

/-- The two halves of the result block: columns [256·(c % 2), +256) and the other 256. -/
abbrev r1 (c : Dev nD) : Rect S256x512 := Rect.unit (s := S256x512) (k0_off1 c) S256x256.size (Facts₀.k0_off1_inb c)
abbrev r2 (c : Dev nD) : Rect S256x512 := Rect.unit (s := S256x512) (k0_off2 c) S256x256.size (Facts₀.k0_off2_inb c)

/-- The own half: own block plus peer 0's; the other half: peer 1's plus peer 2's. -/
def half1 (c : Dev nD) : FVec F S256x256 .bf16 := k0_pay2 (sent m ρ c) (sent m ρ (peer 0 c))
def half2 (c : Dev nD) : FVec F S256x256 .bf16 := k0_pay3 (sent m ρ (peer 1 c)) (sent m ρ (peer 2 c))

/-- The kernel's result on device `c`: the later store (the other half) laid over the earlier (the own half). -/
def outAt (c : Dev nD) : (cc0_stg1_0 : Ref sig .tc).ty.Contents (Elt F) :=
  View.canon [⟨r2 c, half2 m ρ c⟩, ⟨r1 c, half1 m ρ c⟩]

/-- The shares of the source lent to the three copies; the fourth quarter stays for the loads. -/
abbrev shr : Fin 3 → PosShare TreeShare
  | 0 => fullShare.left | 1 => fullShare.right.left | 2 => fullShare.right.right.left
abbrev keptShare : PosShare TreeShare := fullShare.right.right.right

def rPts (k : Fin 3) (c : Dev nD) (f : Buf (Elt F) ((rM k).view.loc (c : Thread nD τ))) : sProp 𝕄 :=
  (rM k).view.loc (c : Thread nD τ) ↦[(rM k).view.set]{fullShare} f
def sPts (c : Dev nD) (q : PosShare TreeShare) : sProp 𝕄 :=
  (sM : Memref sig .tc .vmem S256x256 .bf16).view.loc (c : Thread nD τ) ↦[(sM : Memref sig .tc .vmem S256x256 .bf16).view.set]{q} sent m ρ c

omit [FloatOps F] in
instance rPts_storable (k : Fin 3) (c : Dev nD) (f) : BI.Storable (upEmb : UEmb _ 𝕄) (rPts (F := F) k c f) := by unfold rPts; infer_instance
instance sPts_storable (c : Dev nD) (q) : BI.Storable (upEmb : UEmb _ 𝕄) (sPts (F := F) m ρ c q) := by unfold sPts; infer_instance

/-! ## The schedule -/

/-- What peer `d`'s signal hands device `c`: peer `d`'s `d`-th landing buffer and that its `d`-th receive cell is at round 0. -/
def barPay (c : Dev nD) (d : Fin 3) : sProp 𝕄 :=
  iprop((∃ f, rPts d (peer d c) f) ∗ reached ER (cell (peer d c) (.recv d)) 0)
def recvPay (k : Fin 3) (c : Dev nD) : sProp 𝕄 := rPts k c (landed m ρ k c)
def sendPay (k : Fin 3) (c : Dev nD) : sProp 𝕄 := sPts m ρ c (shr k)

/-- One round, round 0: a barrier cell's three unit duties, one per peer; a send or receive cell's one duty of the block's credit. -/
def exRd : Rounds.Schedule (GSem nD τ sig) (Fin 3) 𝕄 where
  duties g r := if r = 0 ∧ g.1.2 = .tc then (match roleOf g.2 with | some .bar => Finset.univ | some _ => {0} | none => ∅) else ∅
  unitless _ := False
  amount g _ _ := match roleOf g.2 with | some .bar => 1 | _ => N
  payload g _ d := match roleOf g.2 with
    | some .bar => barPay g.1.1 d
    | some (.send k) => sendPay m ρ k g.1.1
    | some (.recv k) => recvPay m ρ k g.1.1
    | none => iprop(emp)
  amount_pos g _ _ _ := by
    cases roleOf g.2 with
    | none => exact N_pos
    | some r => cases r <;> first | exact Nat.one_pos | exact N_pos

instance exRd_payload_storable (g : GSem nD τ sig) (r : ℕ) (d : Fin 3) :
    BI.Storable (upEmb : UEmb _ 𝕄) ((exRd (F := F) m ρ).payload g r d) := by
  show BI.Storable upEmb (match roleOf g.2 with
    | some .bar => barPay g.1.1 d
    | some (.send k) => sendPay m ρ k g.1.1
    | some (.recv k) => recvPay m ρ k g.1.1
    | none => iprop(emp))
  unfold barPay recvPay sendPay
  split <;> infer_instance

section Sched
variable (c : Dev nD)

theorem duties_bar : (exRd (F := F) m ρ).duties (cell c .bar) 0 = Finset.univ := by
  dsimp only [exRd]; rw [if_pos ⟨rfl, rfl⟩, roleOf_roleSem]
theorem duties_send (k : Fin 3) : (exRd (F := F) m ρ).duties (cell c (.send k)) 0 = {0} := by
  dsimp only [exRd]; rw [if_pos ⟨rfl, rfl⟩, roleOf_roleSem]
theorem duties_recv (k : Fin 3) : (exRd (F := F) m ρ).duties (cell c (.recv k)) 0 = {0} := by
  dsimp only [exRd]; rw [if_pos ⟨rfl, rfl⟩, roleOf_roleSem]
theorem duties_later (g : GSem nD τ sig) : ∀ r, 1 ≤ r → (exRd (F := F) m ρ).duties g r = ∅ :=
  fun r hr => by dsimp only [exRd]; rw [if_neg fun h => by omega]

theorem amount_bar (d : Fin 3) : (exRd (F := F) m ρ).amount (cell c .bar) 0 d = 1 := by dsimp only [exRd]; rw [roleOf_roleSem]
theorem amount_send (k d : Fin 3) : (exRd (F := F) m ρ).amount (cell c (.send k)) 0 d = N := by dsimp only [exRd]; rw [roleOf_roleSem]
theorem amount_recv (k d : Fin 3) : (exRd (F := F) m ρ).amount (cell c (.recv k)) 0 d = N := by dsimp only [exRd]; rw [roleOf_roleSem]

theorem expect_bar : (exRd (F := F) m ρ).expect (cell c .bar) 0 = 3 := by
  unfold Schedule.expect Schedule.amountOf
  rw [duties_bar, Finset.sum_congr rfl fun d _ => amount_bar m ρ c d, Finset.sum_const, Finset.card_univ, Fintype.card_fin, smul_eq_mul]
theorem expect_send (k : Fin 3) : (exRd (F := F) m ρ).expect (cell c (.send k)) 0 = N := by
  unfold Schedule.expect Schedule.amountOf; rw [duties_send, Finset.sum_singleton, amount_send]
theorem expect_recv (k : Fin 3) : (exRd (F := F) m ρ).expect (cell c (.recv k)) 0 = N := by
  unfold Schedule.expect Schedule.amountOf; rw [duties_recv, Finset.sum_singleton, amount_recv]

theorem payload_bar (d : Fin 3) : (exRd (F := F) m ρ).payload (cell c .bar) 0 d = barPay c d := by
  dsimp only [exRd]; rw [roleOf_roleSem]
theorem payload_send (k d : Fin 3) : (exRd (F := F) m ρ).payload (cell c (.send k)) 0 d = sendPay m ρ k c := by
  dsimp only [exRd]; rw [roleOf_roleSem]
theorem payload_recv (k d : Fin 3) : (exRd (F := F) m ρ).payload (cell c (.recv k)) 0 d = recvPay m ρ k c := by
  dsimp only [exRd]; rw [roleOf_roleSem]

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

/-- The whole of the barrier cell's round: the three peers' payloads. -/
theorem rest_bar : bigSep ((exRd (F := F) m ρ).duties (cell c .bar) 0 \ ∅) (fun d => (exRd (F := F) m ρ).payload (cell c .bar) 0 d)
    = iprop(barPay c 0 ∗ barPay c 1 ∗ barPay c 2) := by
  rw [Finset.sdiff_empty, duties_bar, bigSep_fin3, payload_bar, payload_bar, payload_bar]
theorem rest_send (k : Fin 3) : bigSep ((exRd (F := F) m ρ).duties (cell c (.send k)) 0 \ ∅) (fun d => (exRd (F := F) m ρ).payload (cell c (.send k)) 0 d) = sendPay m ρ k c := by
  rw [Finset.sdiff_empty, duties_send, bigSep_singleton, payload_send]
theorem rest_recv (k : Fin 3) : bigSep ((exRd (F := F) m ρ).duties (cell c (.recv k)) 0 \ ∅) (fun d => (exRd (F := F) m ρ).payload (cell c (.recv k)) 0 d) = recvPay m ρ k c := by
  rw [Finset.sdiff_empty, duties_recv, bigSep_singleton, payload_recv]

end Sched

/-! ## What each device owes at launch; the levels -/

/-- The block's credit on peer `k`'s `k`-th receive cell; a unit on peer `k`'s barrier cell. -/
abbrev owedR (k : Fin 3) (c : Dev nD) : CellTallies nD τ sig Unit := tallyAt (cell (peer k c) (.recv k)) () N
abbrev owedB (k : Fin 3) (c : Dev nD) : CellTallies nD τ sig Unit := tallyAt (cell (peer k c) .bar) () 1

/-- After the three signals a device owes its three peers' receive cells a block each; summed so that the copies,
    issued in the order 0, 1, 2, each peel the last summand left. -/
def O₃ (c : Dev nD) : CellTallies nD τ sig Unit := owedR 2 c + owedR 1 c + owedR 0 c
def O₂ (c : Dev nD) : CellTallies nD τ sig Unit := O₃ c + owedB 2 c
def O₁ (c : Dev nD) : CellTallies nD τ sig Unit := O₂ c + owedB 1 c
/-- At launch it also owes each peer's barrier cell a unit; the signals go out in the order 0, 1, 2. -/
def O₀ (c : Dev nD) : CellTallies nD τ sig Unit := O₁ c + owedB 0 c

def L (g : GSem nD τ sig) : Finset Unit := if g.1.2 = .tc then {()} else ∅
/-- Barrier cells at 1, receive cells at 2, everything else (staging, send) at 0. -/
def lv (g : GSem nD τ sig) (_ : Unit) : ℕ := match roleOf g.2 with | some .bar => 1 | some (.recv _) => 2 | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (cell c .bar) u = 1 := by dsimp only [lv]; rw [roleOf_roleSem]
theorem lv_recv (k : Fin 3) (c : Dev nD) (u : Unit) : lv (cell c (.recv k)) u = 2 := by dsimp only [lv]; rw [roleOf_roleSem]
theorem lv_send (k : Fin 3) (c : Dev nD) (u : Unit) : lv (cell c (.send k)) u = 0 := by dsimp only [lv]; rw [roleOf_roleSem]

theorem O₃_pos {c : Dev nD} {g : GSem nD τ sig} {u : Unit} (h : 0 < O₃ c g u) : ∃ k, g = cell (peer k c) (.recv k) := by
  unfold O₃ at h
  rw [Pi.add_apply, Finsupp.add_apply, Pi.add_apply, Finsupp.add_apply, tallyAt_apply, tallyAt_apply, tallyAt_apply] at h
  by_contra hn
  rw [not_exists] at hn
  rw [if_neg (fun h' => hn 2 h'.1), if_neg (fun h' => hn 1 h'.1), if_neg (fun h' => hn 0 h'.1)] at h
  exact Nat.lt_irrefl 0 h

theorem O₀_pos {c : Dev nD} {g : GSem nD τ sig} {u : Unit} (h : 0 < O₀ c g u) :
    (∃ k, g = cell (peer k c) (.recv k)) ∨ (∃ k, g = cell (peer k c) .bar) := by
  unfold O₀ O₁ O₂ at h
  rw [Pi.add_apply, Finsupp.add_apply, Pi.add_apply, Finsupp.add_apply, Pi.add_apply, Finsupp.add_apply, tallyAt_apply, tallyAt_apply, tallyAt_apply] at h
  by_cases h3 : 0 < O₃ c g u
  · exact Or.inl (O₃_pos h3)
  · right
    by_contra hn
    rw [not_exists] at hn
    rw [Nat.eq_zero_of_not_pos h3, if_neg (fun h' => hn 2 h'.1), if_neg (fun h' => hn 1 h'.1), if_neg (fun h' => hn 0 h'.1)] at h
    exact Nat.lt_irrefl 0 h

/-- A wait on a cell at level 0 (a staging semaphore), owing what is owed at launch or nothing. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by rw [Finset.mem_singleton.mp hp]; exact le_of_eq hq)
      (fun g u hg => by
        rcases O₀_pos hg with ⟨k, rfl⟩ | ⟨k, rfl⟩
        · rw [lv_recv]; decide
        · rw [lv_bar]; decide)
  · rw [MayWait_zero]; iintro -; iempintro

/-- At its barrier wait a device owes its peers' receive cells only: level 2, above the barrier's 1. -/
theorem mayWait_bar (c : Dev nD) :
    (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by obtain ⟨k, rfl⟩ := O₃_pos hg; exact Finset.mem_singleton_self _)
    (fun p hp => by rw [Finset.mem_singleton.mp hp]; exact le_of_eq (lv_bar c ()))
    (fun g u hg => by obtain ⟨k, rfl⟩ := O₃_pos hg; rw [lv_recv]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A device's seven roles, numbered: the barrier; the sends 0, 1, 2; the receives 0, 1, 2. -/
abbrev roleIx : Fin 7 → Role
  | 0 => .bar | 1 => .send 0 | 2 => .send 1 | 3 => .send 2 | 4 => .recv 0 | 5 => .recv 1 | 6 => .recv 2
abbrev kcell (cj : Dev nD × Fin 7) : GSem nD τ sig := cell cj.1 (roleIx cj.2)

/-- The cells' invariants device `c`'s body opens, under the names `K` the launch allocated them at: its own seven, its
    peers' barrier cells (its signals) and peer `k`'s `k`-th receive cell (its copies). -/
def invs (K : Dev nD × Fin 7 → ℕ) (c : Dev nD) : sProp 𝕄 :=
  iprop(cellInv ER (exRd m ρ) (K (c, 0)) (cell c .bar)
    ∗ cellInv ER (exRd m ρ) (K (c, 1)) (cell c (.send 0)) ∗ cellInv ER (exRd m ρ) (K (c, 2)) (cell c (.send 1)) ∗ cellInv ER (exRd m ρ) (K (c, 3)) (cell c (.send 2))
    ∗ cellInv ER (exRd m ρ) (K (c, 4)) (cell c (.recv 0)) ∗ cellInv ER (exRd m ρ) (K (c, 5)) (cell c (.recv 1)) ∗ cellInv ER (exRd m ρ) (K (c, 6)) (cell c (.recv 2))
    ∗ cellInv ER (exRd m ρ) (K (peer 0 c, 0)) (cell (peer 0 c) .bar) ∗ cellInv ER (exRd m ρ) (K (peer 1 c, 0)) (cell (peer 1 c) .bar) ∗ cellInv ER (exRd m ρ) (K (peer 2 c, 0)) (cell (peer 2 c) .bar)
    ∗ cellInv ER (exRd m ρ) (K (peer 0 c, 4)) (cell (peer 0 c) (.recv 0)) ∗ cellInv ER (exRd m ρ) (K (peer 1 c, 5)) (cell (peer 1 c) (.recv 1)) ∗ cellInv ER (exRd m ρ) (K (peer 2 c, 6)) (cell (peer 2 c) (.recv 2)))

instance invs_persistent (K : Dev nD × Fin 7 → ℕ) (c : Dev nD) : BI.Persistent (invs m ρ K c) := by unfold invs; infer_instance

/-- Device `c`'s positions at round 0 of its seven cells. -/
def positions (c : Dev nD) : sProp 𝕄 :=
  iprop(atPos ER (cell c .bar) 0 ∅ 0
    ∗ atPos ER (cell c (.send 0)) 0 ∅ 0 ∗ atPos ER (cell c (.send 1)) 0 ∅ 0 ∗ atPos ER (cell c (.send 2)) 0 ∅ 0
    ∗ atPos ER (cell c (.recv 0)) 0 ∅ 0 ∗ atPos ER (cell c (.recv 1)) 0 ∅ 0 ∗ atPos ER (cell c (.recv 2)) 0 ∅ 0)

/-- Round 0 reached on every cell the device pays into or waits on, beside the barrier's own. -/
def marks (c : Dev nD) : sProp 𝕄 :=
  iprop(reached ER (cell (peer 0 c) .bar) 0 ∗ reached ER (cell (peer 1 c) .bar) 0 ∗ reached ER (cell (peer 2 c) .bar) 0
    ∗ reached ER (cell (peer 0 c) (.recv 0)) 0 ∗ reached ER (cell (peer 1 c) (.recv 1)) 0 ∗ reached ER (cell (peer 2 c) (.recv 2)) 0
    ∗ reached ER (cell c (.send 0)) 0 ∗ reached ER (cell c (.send 1)) 0 ∗ reached ER (cell c (.send 2)) 0
    ∗ reached ER (cell c (.recv 0)) 0 ∗ reached ER (cell c (.recv 1)) 0 ∗ reached ER (cell c (.recv 2)) 0)

instance marks_persistent (c : Dev nD) : BI.Persistent (marks (F := F) c) := by unfold marks; infer_instance

/-- The tokens of the nine duties device `c` pays: duty `k` of peer `k`'s barrier, peer `k`'s `k`-th receive duty, its own `k`-th send duty. -/
def payToks (c : Dev nD) : sProp 𝕄 :=
  iprop(dutyTok ER (cell (peer 0 c) .bar) 0 0 ∗ dutyTok ER (cell (peer 1 c) .bar) 0 1 ∗ dutyTok ER (cell (peer 2 c) .bar) 0 2
    ∗ dutyTok ER (cell (peer 0 c) (.recv 0)) 0 0 ∗ dutyTok ER (cell (peer 1 c) (.recv 1)) 0 0 ∗ dutyTok ER (cell (peer 2 c) (.recv 2)) 0 0
    ∗ dutyTok ER (cell c (.send 0)) 0 0 ∗ dutyTok ER (cell c (.send 1)) 0 0 ∗ dutyTok ER (cell c (.send 2)) 0 0)

/-- The exchange's ghost state device `c` starts from. -/
def ghost (K : Dev nD × Fin 7 → ℕ) (c : Dev nD) : sProp 𝕄 :=
  iprop(invs m ρ K c ∗ positions c ∗ marks c ∗ payToks c)

/-- The credit dealt at launch: the barrier's three units and each receive cell's block. -/
def credits (c : Dev nD) : sProp 𝕄 :=
  iprop(cred (tallyAt (cell c .bar) () 3) ∗ cred (tallyAt (cell c (.recv 0)) () N) ∗ cred (tallyAt (cell c (.recv 1)) () N) ∗ cred (tallyAt (cell c (.recv 2)) () N))

/-- What device `c`'s body starts from: the ghost state at some names, the credit, the level facts. -/
def start (c : Dev nD) : sProp 𝕄 :=
  iprop((∃ K, ghost m ρ K c) ∗ credits c ∗ levAts L lv)

/-- The four scratch buffers, each whole at some contents: what a region boundary leaves and takes. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- The six own DMA semaphores back at zero. -/
def ownZeros (c : Dev nD) : sProp 𝕄 :=
  iprop(semVal (cell c (.send 0)) 0 ∗ semVal (cell c (.send 1)) 0 ∗ semVal (cell c (.send 2)) 0
    ∗ semVal (cell c (.recv 0)) 0 ∗ semVal (cell c (.recv 1)) 0 ∗ semVal (cell c (.recv 2)) 0)

def Φ₀ (c : Dev nD) : sProp 𝕄 := iprop(start m ρ c ∗ scratch c)
/-- After the point: the scratch buffers whole again, the six own cells at zero, closed (the barrier's is the runtime's). -/
def Φ₁ (c : Dev nD) : sProp 𝕄 := iprop(scratch c ∗ ownZeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer whole at the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is run from at the grid's one point, and what it must leave. -/
def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

end Cert.KernelIdealProof

end
-- ==== Proof.KernelIdealBody.lean ====
/-
  One device's body, stepped from the exchange's ghost state to the post the launch asks for.

  In program order: three unit signals, one to each peer's barrier cell, each handing over the landing buffer that
  peer will write into; the own block cast to the narrow type and stored in the source buffer; the wait for the
  barrier's three units, which brings the three peers' landing buffers; three copies of the source, each lent a
  quarter share of it, into those buffers; the first receive wait, after which the own half of the result is the
  source plus what peer 0 sent; the other two receive waits, after which the other half is what peer 1 sent plus what
  peer 2 sent; the three send waits, which bring the lent shares back.
-/
import proofs.«900318_g7700000000000319_dist_rsx_agy_m256_n256_v7x_xy2x2_bf16_1_alg».proof.Proof.KernelIdealSched

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule's tables, each cell spelt as the pair of its thread and its semaphore, the payloads spelt out -/

section Tables
variable (c : Dev nD)

theorem tb_duties_bar : (exRd (F := F) m ρ).duties ((c : Thread nD τ), SemLoc.reg barS) 0 = Finset.univ := duties_bar m ρ c
theorem tb_amount_bar (d : Fin 3) : (exRd (F := F) m ρ).amount ((c : Thread nD τ), SemLoc.reg barS) 0 d = 1 := amount_bar m ρ c d
theorem tb_expect_bar : (exRd (F := F) m ρ).expect ((c : Thread nD τ), SemLoc.reg barS) 0 = 3 := expect_bar m ρ c
theorem tb_duties_send0 : (exRd (F := F) m ρ).duties ((c : Thread nD τ), SemLoc.dma sendS0.sem) 0 = {0} := duties_send m ρ c 0
theorem tb_amount_send0 (d : Fin 3) : (exRd (F := F) m ρ).amount ((c : Thread nD τ), SemLoc.dma sendS0.sem) 0 d = N := amount_send m ρ c 0 d
theorem tb_expect_send0 : (exRd (F := F) m ρ).expect ((c : Thread nD τ), SemLoc.dma sendS0.sem) 0 = N := expect_send m ρ c 0
theorem tb_duties_recv0 : (exRd (F := F) m ρ).duties ((c : Thread nD τ), SemLoc.dma recvS0.sem) 0 = {0} := duties_recv m ρ c 0
theorem tb_amount_recv0 (d : Fin 3) : (exRd (F := F) m ρ).amount ((c : Thread nD τ), SemLoc.dma recvS0.sem) 0 d = N := amount_recv m ρ c 0 d
theorem tb_expect_recv0 : (exRd (F := F) m ρ).expect ((c : Thread nD τ), SemLoc.dma recvS0.sem) 0 = N := expect_recv m ρ c 0
/-- What the barrier's duty 0 hands its owner: peer 0's landing buffer 0, and that peer's receive cell 0 at round 0. -/
theorem tb_payload_bar0 : (exRd (F := F) m ρ).payload ((c : Thread nD τ), SemLoc.reg barS) 0 0
    = iprop((∃ f, (rM0 : Memref sig .tc .vmem S256x256 .bf16).view.loc (peer 0 c : Thread nD τ) ↦[(rM0 : Memref sig .tc .vmem S256x256 .bf16).view.set]{fullShare} f) ∗ reached ER ((peer 0 c : Thread nD τ), SemLoc.dma recvS0.sem) 0) :=
  payload_bar m ρ c 0
/-- The same duty at peer 0's cell, which this device pays: its own landing buffer 0. -/
theorem tb_payload_bar_peer0 : (exRd (F := F) m ρ).payload ((peer 0 c : Thread nD τ), SemLoc.reg barS) 0 0
    = iprop((∃ f, (rM0 : Memref sig .tc .vmem S256x256 .bf16).view.loc (c : Thread nD τ) ↦[(rM0 : Memref sig .tc .vmem S256x256 .bf16).view.set]{fullShare} f) ∗ reached ER ((c : Thread nD τ), SemLoc.dma recvS0.sem) 0) := by
  have h : ∀ x : Dev nD, x = c → (exRd (F := F) m ρ).payload ((peer 0 c : Thread nD τ), SemLoc.reg barS) 0 0
      = iprop((∃ f, (rM0 : Memref sig .tc .vmem S256x256 .bf16).view.loc (x : Thread nD τ) ↦[(rM0 : Memref sig .tc .vmem S256x256 .bf16).view.set]{fullShare} f) ∗ reached ER ((x : Thread nD τ), SemLoc.dma recvS0.sem) 0) → _ := fun x hx h' => hx ▸ h'
  exact h _ (peer_peer 0 c) (payload_bar m ρ (peer 0 c) 0)
/-- What lands in the own landing buffer 0: what peer 0 sent. -/
theorem tb_payload_recv0 (d : Fin 3) : (exRd (F := F) m ρ).payload ((c : Thread nD τ), SemLoc.dma recvS0.sem) 0 d
    = ((rM0 : Memref sig .tc .vmem S256x256 .bf16).view.loc (c : Thread nD τ) ↦[(rM0 : Memref sig .tc .vmem S256x256 .bf16).view.set]{fullShare} sent m ρ (peer 0 c)) :=
  payload_recv m ρ c 0 d
/-- What lands in peer 0's landing buffer 0: what this device sent. -/
theorem tb_payload_recv_peer0 (d : Fin 3) : (exRd (F := F) m ρ).payload ((peer 0 c : Thread nD τ), SemLoc.dma recvS0.sem) 0 d
    = ((rM0 : Memref sig .tc .vmem S256x256 .bf16).view.loc (peer 0 c : Thread nD τ) ↦[(rM0 : Memref sig .tc .vmem S256x256 .bf16).view.set]{fullShare} sent m ρ c) :=
  (payload_recv m ρ (peer 0 c) 0 d).trans (congrArg (fun z => ((rM0 : Memref sig .tc .vmem S256x256 .bf16).view.loc (peer 0 c : Thread nD τ) ↦[(rM0 : Memref sig .tc .vmem S256x256 .bf16).view.set]{fullShare} sent m ρ z : sProp 𝕄)) (peer_peer 0 c))
/-- The share of the source lent to copy 0 comes back with its send cell. -/
theorem tb_payload_send0 (d : Fin 3) : (exRd (F := F) m ρ).payload ((c : Thread nD τ), SemLoc.dma sendS0.sem) 0 d
    = ((sM : Memref sig .tc .vmem S256x256 .bf16).view.loc (c : Thread nD τ) ↦[(sM : Memref sig .tc .vmem S256x256 .bf16).view.set]{shr 0} sent m ρ c) :=
  payload_send m ρ c 0 d
theorem tb_duties_send1 : (exRd (F := F) m ρ).duties ((c : Thread nD τ), SemLoc.dma sendS1.sem) 0 = {0} := duties_send m ρ c 1
theorem tb_amount_send1 (d : Fin 3) : (exRd (F := F) m ρ).amount ((c : Thread nD τ), SemLoc.dma sendS1.sem) 0 d = N := amount_send m ρ c 1 d
theorem tb_expect_send1 : (exRd (F := F) m ρ).expect ((c : Thread nD τ), SemLoc.dma sendS1.sem) 0 = N := expect_send m ρ c 1
theorem tb_duties_recv1 : (exRd (F := F) m ρ).duties ((c : Thread nD τ), SemLoc.dma recvS1.sem) 0 = {0} := duties_recv m ρ c 1
theorem tb_amount_recv1 (d : Fin 3) : (exRd (F := F) m ρ).amount ((c : Thread nD τ), SemLoc.dma recvS1.sem) 0 d = N := amount_recv m ρ c 1 d
theorem tb_expect_recv1 : (exRd (F := F) m ρ).expect ((c : Thread nD τ), SemLoc.dma recvS1.sem) 0 = N := expect_recv m ρ c 1
/-- What the barrier's duty 1 hands its owner: peer 1's landing buffer 1, and that peer's receive cell 1 at round 0. -/
theorem tb_payload_bar1 : (exRd (F := F) m ρ).payload ((c : Thread nD τ), SemLoc.reg barS) 0 1
    = iprop((∃ f, (rM1 : Memref sig .tc .vmem S256x256 .bf16).view.loc (peer 1 c : Thread nD τ) ↦[(rM1 : Memref sig .tc .vmem S256x256 .bf16).view.set]{fullShare} f) ∗ reached ER ((peer 1 c : Thread nD τ), SemLoc.dma recvS1.sem) 0) :=
  payload_bar m ρ c 1
/-- The same duty at peer 1's cell, which this device pays: its own landing buffer 1. -/
theorem tb_payload_bar_peer1 : (exRd (F := F) m ρ).payload ((peer 1 c : Thread nD τ), SemLoc.reg barS) 0 1
    = iprop((∃ f, (rM1 : Memref sig .tc .vmem S256x256 .bf16).view.loc (c : Thread nD τ) ↦[(rM1 : Memref sig .tc .vmem S256x256 .bf16).view.set]{fullShare} f) ∗ reached ER ((c : Thread nD τ), SemLoc.dma recvS1.sem) 0) := by
  have h : ∀ x : Dev nD, x = c → (exRd (F := F) m ρ).payload ((peer 1 c : Thread nD τ), SemLoc.reg barS) 0 1
      = iprop((∃ f, (rM1 : Memref sig .tc .vmem S256x256 .bf16).view.loc (x : Thread nD τ) ↦[(rM1 : Memref sig .tc .vmem S256x256 .bf16).view.set]{fullShare} f) ∗ reached ER ((x : Thread nD τ), SemLoc.dma recvS1.sem) 0) → _ := fun x hx h' => hx ▸ h'
  exact h _ (peer_peer 1 c) (payload_bar m ρ (peer 1 c) 1)
/-- What lands in the own landing buffer 1: what peer 1 sent. -/
theorem tb_payload_recv1 (d : Fin 3) : (exRd (F := F) m ρ).payload ((c : Thread nD τ), SemLoc.dma recvS1.sem) 0 d
    = ((rM1 : Memref sig .tc .vmem S256x256 .bf16).view.loc (c : Thread nD τ) ↦[(rM1 : Memref sig .tc .vmem S256x256 .bf16).view.set]{fullShare} sent m ρ (peer 1 c)) :=
  payload_recv m ρ c 1 d
/-- What lands in peer 1's landing buffer 1: what this device sent. -/
theorem tb_payload_recv_peer1 (d : Fin 3) : (exRd (F := F) m ρ).payload ((peer 1 c : Thread nD τ), SemLoc.dma recvS1.sem) 0 d
    = ((rM1 : Memref sig .tc .vmem S256x256 .bf16).view.loc (peer 1 c : Thread nD τ) ↦[(rM1 : Memref sig .tc .vmem S256x256 .bf16).view.set]{fullShare} sent m ρ c) :=
  (payload_recv m ρ (peer 1 c) 1 d).trans (congrArg (fun z => ((rM1 : Memref sig .tc .vmem S256x256 .bf16).view.loc (peer 1 c : Thread nD τ) ↦[(rM1 : Memref sig .tc .vmem S256x256 .bf16).view.set]{fullShare} sent m ρ z : sProp 𝕄)) (peer_peer 1 c))
/-- The share of the source lent to copy 1 comes back with its send cell. -/
theorem tb_payload_send1 (d : Fin 3) : (exRd (F := F) m ρ).payload ((c : Thread nD τ), SemLoc.dma sendS1.sem) 0 d
    = ((sM : Memref sig .tc .vmem S256x256 .bf16).view.loc (c : Thread nD τ) ↦[(sM : Memref sig .tc .vmem S256x256 .bf16).view.set]{shr 1} sent m ρ c) :=
  payload_send m ρ c 1 d
theorem tb_duties_send2 : (exRd (F := F) m ρ).duties ((c : Thread nD τ), SemLoc.dma sendS2.sem) 0 = {0} := duties_send m ρ c 2
theorem tb_amount_send2 (d : Fin 3) : (exRd (F := F) m ρ).amount ((c : Thread nD τ), SemLoc.dma sendS2.sem) 0 d = N := amount_send m ρ c 2 d
theorem tb_expect_send2 : (exRd (F := F) m ρ).expect ((c : Thread nD τ), SemLoc.dma sendS2.sem) 0 = N := expect_send m ρ c 2
theorem tb_duties_recv2 : (exRd (F := F) m ρ).duties ((c : Thread nD τ), SemLoc.dma recvS2.sem) 0 = {0} := duties_recv m ρ c 2
theorem tb_amount_recv2 (d : Fin 3) : (exRd (F := F) m ρ).amount ((c : Thread nD τ), SemLoc.dma recvS2.sem) 0 d = N := amount_recv m ρ c 2 d
theorem tb_expect_recv2 : (exRd (F := F) m ρ).expect ((c : Thread nD τ), SemLoc.dma recvS2.sem) 0 = N := expect_recv m ρ c 2
/-- What the barrier's duty 2 hands its owner: peer 2's landing buffer 2, and that peer's receive cell 2 at round 0. -/
theorem tb_payload_bar2 : (exRd (F := F) m ρ).payload ((c : Thread nD τ), SemLoc.reg barS) 0 2
    = iprop((∃ f, (rM2 : Memref sig .tc .vmem S256x256 .bf16).view.loc (peer 2 c : Thread nD τ) ↦[(rM2 : Memref sig .tc .vmem S256x256 .bf16).view.set]{fullShare} f) ∗ reached ER ((peer 2 c : Thread nD τ), SemLoc.dma recvS2.sem) 0) :=
  payload_bar m ρ c 2
/-- The same duty at peer 2's cell, which this device pays: its own landing buffer 2. -/
theorem tb_payload_bar_peer2 : (exRd (F := F) m ρ).payload ((peer 2 c : Thread nD τ), SemLoc.reg barS) 0 2
    = iprop((∃ f, (rM2 : Memref sig .tc .vmem S256x256 .bf16).view.loc (c : Thread nD τ) ↦[(rM2 : Memref sig .tc .vmem S256x256 .bf16).view.set]{fullShare} f) ∗ reached ER ((c : Thread nD τ), SemLoc.dma recvS2.sem) 0) := by
  have h : ∀ x : Dev nD, x = c → (exRd (F := F) m ρ).payload ((peer 2 c : Thread nD τ), SemLoc.reg barS) 0 2
      = iprop((∃ f, (rM2 : Memref sig .tc .vmem S256x256 .bf16).view.loc (x : Thread nD τ) ↦[(rM2 : Memref sig .tc .vmem S256x256 .bf16).view.set]{fullShare} f) ∗ reached ER ((x : Thread nD τ), SemLoc.dma recvS2.sem) 0) → _ := fun x hx h' => hx ▸ h'
  exact h _ (peer_peer 2 c) (payload_bar m ρ (peer 2 c) 2)
/-- What lands in the own landing buffer 2: what peer 2 sent. -/
theorem tb_payload_recv2 (d : Fin 3) : (exRd (F := F) m ρ).payload ((c : Thread nD τ), SemLoc.dma recvS2.sem) 0 d
    = ((rM2 : Memref sig .tc .vmem S256x256 .bf16).view.loc (c : Thread nD τ) ↦[(rM2 : Memref sig .tc .vmem S256x256 .bf16).view.set]{fullShare} sent m ρ (peer 2 c)) :=
  payload_recv m ρ c 2 d
/-- What lands in peer 2's landing buffer 2: what this device sent. -/
theorem tb_payload_recv_peer2 (d : Fin 3) : (exRd (F := F) m ρ).payload ((peer 2 c : Thread nD τ), SemLoc.dma recvS2.sem) 0 d
    = ((rM2 : Memref sig .tc .vmem S256x256 .bf16).view.loc (peer 2 c : Thread nD τ) ↦[(rM2 : Memref sig .tc .vmem S256x256 .bf16).view.set]{fullShare} sent m ρ c) :=
  (payload_recv m ρ (peer 2 c) 2 d).trans (congrArg (fun z => ((rM2 : Memref sig .tc .vmem S256x256 .bf16).view.loc (peer 2 c : Thread nD τ) ↦[(rM2 : Memref sig .tc .vmem S256x256 .bf16).view.set]{fullShare} sent m ρ z : sProp 𝕄)) (peer_peer 2 c))
/-- The share of the source lent to copy 2 comes back with its send cell. -/
theorem tb_payload_send2 (d : Fin 3) : (exRd (F := F) m ρ).payload ((c : Thread nD τ), SemLoc.dma sendS2.sem) 0 d
    = ((sM : Memref sig .tc .vmem S256x256 .bf16).view.loc (c : Thread nD τ) ↦[(sM : Memref sig .tc .vmem S256x256 .bf16).view.set]{shr 2} sent m ρ c) :=
  payload_send m ρ c 2 d

end Tables

attribute [local sl_rounds] tb_duties_bar tb_amount_bar tb_expect_bar
  tb_duties_send0 tb_amount_send0 tb_expect_send0 tb_duties_recv0 tb_amount_recv0 tb_expect_recv0 tb_payload_bar0 tb_payload_recv0 tb_payload_send0
  tb_duties_send1 tb_amount_send1 tb_expect_send1 tb_duties_recv1 tb_amount_recv1 tb_expect_recv1 tb_payload_bar1 tb_payload_recv1 tb_payload_send1
  tb_duties_send2 tb_amount_send2 tb_expect_send2 tb_duties_recv2 tb_amount_recv2 tb_expect_recv2 tb_payload_bar2 tb_payload_recv2 tb_payload_send2
attribute [local sl_rounds high] tb_payload_bar_peer0 tb_payload_bar_peer1 tb_payload_bar_peer2 tb_payload_recv_peer0 tb_payload_recv_peer1 tb_payload_recv_peer2
attribute [local sl_canon] dev1_eq dev2_eq dev3_eq dev4_eq dev5_eq dev6_eq

omit [FloatOps F] in
/-- A whole buffer's points-to, spelt through the whole memref's view. -/
theorem pts_view (c : Dev nD) (b : Ref sig .tc) (q : PosShare TreeShare) (f : Buf (Elt F) ((c : Thread nD τ).loc b)) :
    (((c : Thread nD τ).loc b) ↦{q} f : sProp 𝕄)
      = ((Memref.whole b : Memref sig .tc b.space b.ty.shape b.ty.elt).view.loc (c : Thread nD τ) ↦[(Memref.whole b : Memref sig .tc b.space b.ty.shape b.ty.elt).view.set]{q} f) := by
  rw [View.set_whole]

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl

/-- What the first store leaves in the source buffer: the device's block, cast. -/
theorem src_eq (c : Dev nD) (fs : Buf (Elt F) ((c : Thread nD τ).loc cc0_scratch0)) :
    (sM : Memref sig .tc .vmem S256x256 .bf16).view.writes (Elt F) fs
      [⟨Rect.unit (s := S256x256) ![0, 0] S256x256.size Facts₀.inb_S256x256_S256x256_0_0,
        k0_pay1 ((xM : Memref sig .tc .vmem S1x256x256 .f32).view.readAt (Elt F)
          (Rect.unit (s := S1x256x256) ![0, 0, 0] S1x256x256.size Facts₀.inb_S1x256x256_S1x256x256_0_0_0).toLoadRect (xstg m ρ c))⟩]
      = sent m ρ c := by
  have h1 : (xM : Memref sig .tc .vmem S1x256x256 .f32).view.readAt (Elt F)
      (Rect.unit (s := S1x256x256) ![0, 0, 0] S1x256x256.size Facts₀.inb_S1x256x256_S1x256x256_0_0_0).toLoadRect (xstg m ρ c) = xstg m ρ c :=
    Memref.readAt_unit_zero (Elt F) cc0_stg0_0 hz3 _ _
  rw [View.writes_singleton, h1]
  exact Memref.write_access_unit_zero_univ (Elt F) cc0_scratch0 hz2 _ fs _

/-- The barrier round's three payloads, one by one. -/
theorem bar_payloads (c : Dev nD) :
    (bigSep Finset.univ (fun d : Fin 3 => (exRd (F := F) m ρ).payload (cell c Role.bar) 0 d) : sProp 𝕄)
      = iprop(((∃ f, (rM0 : Memref sig .tc .vmem S256x256 .bf16).view.loc (peer 0 c : Thread nD τ) ↦[(rM0 : Memref sig .tc .vmem S256x256 .bf16).view.set]{fullShare} f) ∗ reached ER ((peer 0 c : Thread nD τ), SemLoc.dma recvS0.sem) 0)
          ∗ ((∃ f, (rM1 : Memref sig .tc .vmem S256x256 .bf16).view.loc (peer 1 c : Thread nD τ) ↦[(rM1 : Memref sig .tc .vmem S256x256 .bf16).view.set]{fullShare} f) ∗ reached ER ((peer 1 c : Thread nD τ), SemLoc.dma recvS1.sem) 0)
          ∗ ((∃ f, (rM2 : Memref sig .tc .vmem S256x256 .bf16).view.loc (peer 2 c : Thread nD τ) ↦[(rM2 : Memref sig .tc .vmem S256x256 .bf16).view.set]{fullShare} f) ∗ reached ER ((peer 2 c : Thread nD τ), SemLoc.dma recvS2.sem) 0)) := by
  rw [bigSep_fin3]
  exact congrArg₂ _ (tb_payload_bar0 m ρ c) (congrArg₂ _ (tb_payload_bar1 m ρ c) (tb_payload_bar2 m ρ c))

omit [FloatOps F] in
/-- The two column halves cover the result block. -/
theorem mem_r2_or_r1 (c : Dev nD) (y : S256x512.Idx) : y ∈ (r2 c).set ∨ y ∈ (r1 c).set := by
  have h0 : (y 0).val < 256 := (y 0).isLt
  have h1 : (y 1).val < 512 := (y 1).isLt
  have hc : c.val % 2 = 0 ∨ c.val % 2 = 1 := Nat.mod_two_eq_zero_or_one _
  rw [Rect.mem_set_unit, Rect.mem_set_unit, k0_off1_eq, k0_off2_eq, Fin.forall_fin_two, Fin.forall_fin_two]
  simp only [Matrix.cons_val_zero, Matrix.cons_val_one, Matrix.head_cons]
  omega

abbrev R0 : Rect S256x256 := Rect.unit (s := S256x256) ![0, 0] S256x256.size Facts₀.inb_S256x256_S256x256_0_0

/-- What the two half stores leave in the result's staging buffer, over any prior contents: the later store's
    half laid over the earlier's, the two covering the block. -/
theorem out_eq (c : Dev nD) (g1 : Buf (Elt F) ((c : Thread nD τ).loc cc0_stg1_0)) :
    (oM : Memref sig .tc .vmem S256x512 .bf16).view.writes (Elt F) g1
      [⟨r2 c, k0_pay3 ((rM1 : Memref sig .tc .vmem S256x256 .bf16).view.readAt (Elt F) R0.toLoadRect (sent m ρ (peer 1 c)))
                ((rM2 : Memref sig .tc .vmem S256x256 .bf16).view.readAt (Elt F) R0.toLoadRect (sent m ρ (peer 2 c)))⟩,
       ⟨r1 c, k0_pay2 ((sM : Memref sig .tc .vmem S256x256 .bf16).view.readAt (Elt F) R0.toLoadRect (sent m ρ c))
                ((rM0 : Memref sig .tc .vmem S256x256 .bf16).view.readAt (Elt F) R0.toLoadRect (sent m ρ (peer 0 c)))⟩]
      = outAt m ρ c := by
  have e0 : (sM : Memref sig .tc .vmem S256x256 .bf16).view.readAt (Elt F) R0.toLoadRect (sent m ρ c) = sent m ρ c :=
    Memref.readAt_unit_zero (Elt F) cc0_scratch0 hz2 _ _
  have e1 : (rM0 : Memref sig .tc .vmem S256x256 .bf16).view.readAt (Elt F) R0.toLoadRect (sent m ρ (peer 0 c)) = sent m ρ (peer 0 c) :=
    Memref.readAt_unit_zero (Elt F) cc0_scratch1 hz2 _ _
  have e2 : (rM1 : Memref sig .tc .vmem S256x256 .bf16).view.readAt (Elt F) R0.toLoadRect (sent m ρ (peer 1 c)) = sent m ρ (peer 1 c) :=
    Memref.readAt_unit_zero (Elt F) cc0_scratch2 hz2 _ _
  have e3 : (rM2 : Memref sig .tc .vmem S256x256 .bf16).view.readAt (Elt F) R0.toLoadRect (sent m ρ (peer 2 c)) = sent m ρ (peer 2 c) :=
    Memref.readAt_unit_zero (Elt F) cc0_scratch3 hz2 _ _
  rw [e0, e1, e2, e3]
  unfold outAt half1 half2
  refine (View.read_whole cc0_stg1_0 _).symm.trans ?_
  refine View.read_writes_eq_canon (View.whole cc0_stg1_0) g1 _ ?_
  intro y
  rcases mem_r2_or_r1 c y with h | h
  · exact ⟨_, List.Mem.head _, h⟩
  · exact ⟨_, List.Mem.tail _ (List.Mem.head _), h⟩

section Body

variable (K : Dev nD × Fin 7 → ℕ)

/-- The body's precondition with the names of the invariants fixed. -/
def bodyPreK (c : Dev nD) : sProp 𝕄 :=
  iprop((ghost m ρ K c ∗ credits c ∗ levAts L lv ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxHeartbeats 1600000 in
theorem sound_body (c : Dev nD) (Kt : PUnit → sProp 𝕄) :
    iprop(bodyPreK m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _) cc0_scratch4 cc0_scratch5) Kt := by
  unfold bodyPreK ghost invs positions marks payToks credits scratch
  iintro ⟨⟨⟨⟨⟨#HIb, #HIs0, #HIs1, #HIs2, #HIr0, #HIr1, #HIr2, #HIb0, #HIb1, #HIb2, #HIp0, #HIp1, #HIp2⟩,
      ⟨HatB, HatS0, HatS1, HatS2, HatR0, HatR1, HatR2⟩,
      ⟨#HrB0, #HrB1, #HrB2, #HrP0, #HrP1, #HrP2, #HrS0, #HrS1, #HrS2, #HrR0, #HrR1, #HrR2⟩,
      ⟨HtB0, HtB1, HtB2, HtP0, HtP1, HtP2, HtS0, HtS1, HtS2⟩⟩,
      ⟨HcB, HcR0, HcR1, HcR2⟩, #Hlev, ⟨⟨%fs, Hs⟩, ⟨%fa, Ha⟩, ⟨%fb, Hb⟩, ⟨%fd, Hd⟩⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀ O₁ O₂ O₃
  have hmw := mayWait_bar (F := F) c
  unfold O₃ at hmw
  ihave Hs := (Entails.of_eq (pts_view c cc0_scratch0 fullShare fs)) $$ Hs
  ihave Ha := (Entails.of_eq (pts_view c cc0_scratch1 fullShare fa)) $$ Ha
  ihave Hb := (Entails.of_eq (pts_view c cc0_scratch2 fullShare fb)) $$ Hb
  ihave Hd := (Entails.of_eq (pts_view c cc0_scratch3 fullShare fd)) $$ Hd
  ihave Hx := (Entails.of_eq (pts_view c cc0_stg0_0 fullShare (xstg m ρ c))) $$ Hx
  ihave Hout := (Entails.of_eq (pts_view c cc0_stg1_0 fullShare g1)) $$ Hout
  sl_unfold [cc0_body]
  sl_exec (disch := simp only [dev4_eq, dev5_eq, dev6_eq])
  ihave Hp := (Entails.of_eq (bar_payloads m ρ c)) $$ HatB_pay1
  icases Hp with ⟨⟨⟨%fn0, Hp0⟩, -⟩, ⟨⟨%fn1, Hp1⟩, -⟩, ⟨%fn2, Hp2⟩, -⟩
  rw [src_eq m ρ c fs]
  ihave Hs := (pointsTo_share (PosShare.mem_left_op_right fullShare)).1 $$ Hs
  icases Hs with ⟨Hs0, HsR⟩
  ihave HsR := (pointsTo_share (PosShare.mem_left_op_right fullShare.right)).1 $$ HsR
  icases HsR with ⟨Hs1, HsRR⟩
  ihave HsRR := (pointsTo_share (PosShare.mem_left_op_right fullShare.right.right)).1 $$ HsRR
  icases HsRR with ⟨Hs2, HsK⟩
  sl_exec (disch := simp only [dev4_eq, dev5_eq, dev6_eq])
  rw [out_eq m ρ c g1, wp_ret]
  -- the six own cells close: their counters at zero are the core's again
  imod (Rounds.cell_close ER (exRd m ρ) (Set.mem_univ (K (c, 1))) (fun h => h) (R := 1) (duties_later m ρ (cell c (.send 0)))) $$ [HatS0] with HzS0
  · isplitr; · iexact HIs0
    iexact HatS0
  imod (Rounds.cell_close ER (exRd m ρ) (Set.mem_univ (K (c, 2))) (fun h => h) (R := 1) (duties_later m ρ (cell c (.send 1)))) $$ [HatS1] with HzS1
  · isplitr; · iexact HIs1
    iexact HatS1
  imod (Rounds.cell_close ER (exRd m ρ) (Set.mem_univ (K (c, 3))) (fun h => h) (R := 1) (duties_later m ρ (cell c (.send 2)))) $$ [HatS2] with HzS2
  · isplitr; · iexact HIs2
    iexact HatS2
  imod (Rounds.cell_close ER (exRd m ρ) (Set.mem_univ (K (c, 4))) (fun h => h) (R := 1) (duties_later m ρ (cell c (.recv 0)))) $$ [HatR0] with HzR0
  · isplitr; · iexact HIr0
    iexact HatR0
  imod (Rounds.cell_close ER (exRd m ρ) (Set.mem_univ (K (c, 5))) (fun h => h) (R := 1) (duties_later m ρ (cell c (.recv 1)))) $$ [HatR1] with HzR1
  · isplitr; · iexact HIr1
    iexact HatR1
  imod (Rounds.cell_close ER (exRd m ρ) (Set.mem_univ (K (c, 6))) (fun h => h) (R := 1) (duties_later m ρ (cell c (.recv 2)))) $$ [HatR2] with HzR2
  · isplitr; · iexact HIr2
    iexact HatR2
  imodintro
  iapply Hk
  unfold bodyPost Φ₁ scratch ownZeros Dat.owesAt Pipeline.owesWithin
  rw [show (dats m ρ 0 c).owed t₀.succ = 0 from rfl]
  isplitl [HsK HatS0_pay1 HatS1_pay1 HatS2_pay1 HatR0_pay1 HatR1_pay1 HatR2_pay1 HzS0 HzS1 HzS2 HzR0 HzR1 HzR2]
  · isplitl [HsK HatS0_pay1 HatS1_pay1 HatS2_pay1 HatR0_pay1 HatR1_pay1 HatR2_pay1]
    · -- the source's four shares rejoin
      isplitl [HsK HatS0_pay1 HatS1_pay1 HatS2_pay1]
      · iexists (sent m ρ c)
        iapply (Entails.of_eq (pts_view c cc0_scratch0 fullShare (sent m ρ c)).symm)
        iapply (pointsTo_share (PosShare.mem_left_op_right fullShare)).2
        isplitl [HatS0_pay1]; · iexact HatS0_pay1
        iapply (pointsTo_share (PosShare.mem_left_op_right fullShare.right)).2
        isplitl [HatS1_pay1]; · iexact HatS1_pay1
        iapply (pointsTo_share (PosShare.mem_left_op_right fullShare.right.right)).2
        isplitl [HatS2_pay1]; · iexact HatS2_pay1
        iexact HsK
      isplitl [HatR0_pay1]
      · iexists (sent m ρ (peer 0 c))
        iapply (Entails.of_eq (pts_view c cc0_scratch1 fullShare (sent m ρ (peer 0 c))).symm); iexact HatR0_pay1
      isplitl [HatR1_pay1]
      · iexists (sent m ρ (peer 1 c))
        iapply (Entails.of_eq (pts_view c cc0_scratch2 fullShare (sent m ρ (peer 1 c))).symm); iexact HatR1_pay1
      · iexists (sent m ρ (peer 2 c))
        iapply (Entails.of_eq (pts_view c cc0_scratch3 fullShare (sent m ρ (peer 2 c))).symm); iexact HatR2_pay1
    · isplitl [HzS0]; · iexact HzS0
      isplitl [HzS1]; · iexact HzS1
      isplitl [HzS2]; · iexact HzS2
      isplitl [HzR0]; · iexact HzR0
      isplitl [HzR1]; · iexact HzR1
      iexact HzR2
  isplitl [HO]
  · iexists (insert (SemLoc.dma sendS2.sem, ()) (insert (SemLoc.dma sendS1.sem, ()) (insert (SemLoc.dma sendS0.sem, ())
      (insert (SemLoc.dma recvS2.sem, ()) (insert (SemLoc.dma recvS1.sem, ()) (insert (SemLoc.dma recvS0.sem, ())
        (insert (SemLoc.reg barS, ()) W)))))))
    isplitr; · ipureintro; exact fun _ _ => Or.inl trivial
    iexact HO
  isplitl [Hx]
  · iexists _; isplitr; · (ipureintro; rfl)
    iapply (Entails.of_eq (pts_view c cc0_stg0_0 fullShare (xstg m ρ c)).symm); iexact Hx
  iexists _; isplitr; · (ipureintro; rfl)
  iapply (Entails.of_eq (pts_view c cc0_stg1_0 fullShare (outAt m ρ c)).symm); iexact Hout

/-- The body's precondition as the launch states it. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _) cc0_scratch4 cc0_scratch5)
    (fun _ => bodyPost m ρ c)
  unfold bodyPre Φ₀ start
  iintro ⟨⟨⟨⟨%K, Hg⟩, Hcr, Hlev⟩, Hscr⟩, Ho, Hx, Hout⟩
  iapply (sound_body m ρ K c fun _ => bodyPost m ρ c)
  unfold bodyPreK
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

/-- info: 'Cert.KernelIdealProof.body_obligation' depends on axioms: [propext, Classical.choice, Quot.sound] -/
#guard_msgs in #print axioms body_obligation

end Body

end Cert.KernelIdealProof

end
-- ==== Proof.KernelIdealLaunch.lean ====
/-
  The launch of the four-device exchange.

  Each device's seven cells (its barrier cell, three send cells, three receive cells) are funded from one launch
  element; the nine duty tokens a device mints are dealt around by the three peer involutions, so that each device
  ends holding the tokens of the nine duties it pays; the cells' invariants are allocated for all devices under one
  update, because a barrier cell is shared by the four devices; the launch credit of a barrier cell is three units
  (one from each peer) and of the k-th receive cell one block (from peer k). The run is then one application of the
  launch theorem for a protocol that also runs on the runtime's barrier semaphore, and the final arrays are read off:
  the input array is never written, the result array is the one block the single grid point writes back whole.
-/
import proofs.«900318_g7700000000000319_dist_rsx_agy_m256_n256_v7x_xy2x2_bf16_1_alg».proof.Defs
import proofs.«900318_g7700000000000319_dist_rsx_agy_m256_n256_v7x_xy2x2_bf16_1_alg».proof.Proof.Gen.KernelIdeal
import proofs.«900318_g7700000000000319_dist_rsx_agy_m256_n256_v7x_xy2x2_bf16_1_alg».proof.Proof.Gen.KernelIdeal.Skeleton
import proofs.«900318_g7700000000000319_dist_rsx_agy_m256_n256_v7x_xy2x2_bf16_1_alg».proof.Proof.Gen.KernelIdeal.Launch
import proofs.«900318_g7700000000000319_dist_rsx_agy_m256_n256_v7x_xy2x2_bf16_1_alg».proof.Proof.Gen.KernelIdeal.Points
import Idealize.ShloMosaic.Lib.Pipeline.Launch
import Idealize.ShloMosaic.Lib.Pipeline.Kit
import Idealize.ShloMosaic.Lib.Pipeline.FrameBody
import Idealize.ShloMosaic.Lib.Tactic
import proofs.«900318_g7700000000000319_dist_rsx_agy_m256_n256_v7x_xy2x2_bf16_1_alg».proof.Proof.KernelIdealSched

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- The kernel's own (scoped) semaphores: the three send semaphores, then the three receive semaphores. -/
abbrev osem : Fin 6 → SemLoc sig := fun
  | 0 => .dma (sendSem 0) | 1 => .dma (sendSem 1) | 2 => .dma (sendSem 2)
  | 3 => .dma (recvSem 0) | 4 => .dma (recvSem 1) | 5 => .dma (recvSem 2)

theorem ownSemFacts : Pipeline.OwnSemFacts cfg0.spec osem := by decide

theorem share_eq (c : Dev nD) (w : Fin cfg0.W) : (dats m ρ 0 c).share w = fullShare := by unfold Dat.share; split <;> rfl

theorem roleIx_injective : Function.Injective roleIx := by decide

theorem kcell_injective : Function.Injective (kcell : Dev nD × Fin 7 → GSem nD τ sig) := by
  rintro ⟨c, j⟩ ⟨c', j'⟩ h
  obtain ⟨h1, h2⟩ := cell_eq_iff.mp h
  have h1' : c = c' := h1
  subst h1'
  have h2' : j = j' := roleIx_injective h2
  subst h2'; rfl

/-- The twenty-eight cells of the exchange. -/
def exCells : Finset (GSem nD τ sig) := Finset.univ.map ⟨kcell, kcell_injective⟩

/-- A device's own cells' duty tokens as minted: its barrier's duties 0, 1, 2, then duty 0 of each send and each receive cell. -/
abbrev tokRole : Fin 9 → Role
  | 0 => .bar | 1 => .bar | 2 => .bar | 3 => .send 0 | 4 => .send 1 | 5 => .send 2 | 6 => .recv 0 | 7 => .recv 1 | 8 => .recv 2
abbrev tokDuty : Fin 9 → Fin 3
  | 0 => 0 | 1 => 1 | 2 => 2 | 3 => 0 | 4 => 0 | 5 => 0 | 6 => 0 | 7 => 0 | 8 => 0
abbrev tokOf (cj : Dev nD × Fin 9) : GSem nD τ sig × ℕ × Fin 3 := (cell cj.1 (tokRole cj.2), 0, tokDuty cj.2)

theorem tok_injective : Function.Injective (fun j : Fin 9 => (tokRole j, tokDuty j)) := by decide

theorem tokOf_injective : Function.Injective (tokOf : Dev nD × Fin 9 → GSem nD τ sig × ℕ × Fin 3) := by
  rintro ⟨c, j⟩ ⟨c', j'⟩ h
  obtain ⟨h1, h2⟩ := cell_eq_iff.mp (congrArg Prod.fst h)
  have h3 : tokDuty j = tokDuty j' := congrArg (fun x : GSem nD τ sig × ℕ × Fin 3 => x.2.2) h
  have h1' : c = c' := h1
  subst h1'
  have h4 : j = j' := tok_injective (show (tokRole j, tokDuty j) = (tokRole j', tokDuty j') from by rw [h2, h3])
  subst h4; rfl

def exToks : Finset (GSem nD τ sig × ℕ × Fin 3) := Finset.univ.map ⟨tokOf, tokOf_injective⟩

/-- The launch element: the pipeline's copy beside the exchange's. -/
def u₀ : UU :=
  (initOf (Pipeline.cells cfgs cellOf_inj) (Pipeline.launchToks cfgs cellOf_inj), initOf exCells exToks)

/-- The duty tokens of device `c`'s own cells. -/
def toks (c : Dev nD) : sProp 𝕄 :=
  iprop(dutyTok ER (cell c .bar) 0 0 ∗ dutyTok ER (cell c .bar) 0 1 ∗ dutyTok ER (cell c .bar) 0 2
    ∗ dutyTok ER (cell c (.send 0)) 0 0 ∗ dutyTok ER (cell c (.send 1)) 0 0 ∗ dutyTok ER (cell c (.send 2)) 0 0
    ∗ dutyTok ER (cell c (.recv 0)) 0 0 ∗ dutyTok ER (cell c (.recv 1)) 0 0 ∗ dutyTok ER (cell c (.recv 2)) 0 0)

/-- What the launch element deals device `c`. -/
def G (c : Dev nD) : sProp 𝕄 :=
  iprop((bigSep Finset.univ fun j : Fin 7 => roundState ER (exRd m ρ) (kcell (c, j)) 0)
    ∗ (bigSep Finset.univ fun j : Fin 7 => iprop(atPos ER (kcell (c, j)) 0 ∅ 0 ∗ reached ER (kcell (c, j)) 0)) ∗ toks c)

/-- What the global step makes of it. -/
def G' (c : Dev nD) : sProp 𝕄 := iprop(∃ K, ghost m ρ K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- Funding: the exchange's launch element is every cell's round state, position and mark, and every device's tokens. -/
theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun j : Fin 7 => Φ (kcell (c, j)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_fin9]; rfl
  iintro HX
  imod (Rounds.fund ER (exRd m ρ) exCells exToks) $$ HX with ⟨Hst, Hr, Hat, Htok⟩
  imodintro
  ihave Hst' := (Entails.of_eq (hX fun g => roundState ER (exRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every device's cells closed at once -/

omit [FloatOps F] in
/-- The send and receive semaphores are the kernel's own six; -/
theorem ownSems0_eq (c : Dev nD) : (Pipeline.ownSems0 (Ix := Unit) (Name := ℕ) (U := UU) (Lvl := ℕ) (Val := Elt F) (τ := τ) osem c : sProp 𝕄)
    = ownZeros c := by
  rw [Pipeline.ownSems0_eq_of_list c osem [0, 1, 2, 3, 4, 5] (by decide) (by decide)]; rfl
omit [FloatOps F] in
/-- the barrier semaphore the launch's one unscoped semaphore. -/
theorem unscopedSems0_eq (c : Dev nD) : (unscopedSems0 c : sProp 𝕄) = semVal (cell c .bar) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 7 => semVal (kcell (c, j)) 0 : sProp 𝕄) := by
  rw [ownSems0_eq, unscopedSems0_eq, bigSep_fin7]
  unfold ownZeros
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5]; · iexact H5
  iexact H6

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j => iprop(∃ κ : ℕ, cellInv ER (exRd m ρ) κ (kcell (c, j))))
          ∗ (bigSep Finset.univ fun j : Fin 7 => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Fin 7 => semVal (kcell (c, j)) 0) ∗ bigSep Finset.univ fun j : Fin 7 => roundState ER (exRd m ρ) (kcell (c, j)) 0)
      ⊢ (|={Set.univ}=> bigSep Finset.univ fun j => iprop(∃ κ : ℕ, cellInv ER (exRd m ρ) κ (kcell (c, j))) : sProp 𝕄) from by
        rw [← bigSep_sep']
        exact (bigSep_mono fun j _ => (Rounds.body_intro ER (exRd m ρ) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant at the name it was allocated at, and that round 0 of every cell is reached. -/
def records (K : Dev nD × Fin 7 → ℕ) : sProp 𝕄 :=
  iprop((bigSep Finset.univ fun cj : Dev nD × Fin 7 => cellInv ER (exRd m ρ) (K cj) (kcell cj))
    ∗ bigSep Finset.univ fun cj : Dev nD × Fin 7 => reached ER (kcell cj) 0)

instance records_persistent (K : Dev nD × Fin 7 → ℕ) : BI.Persistent (records m ρ K) := by unfold records; infer_instance

theorem inv_at (K : Dev nD × Fin 7 → ℕ) (cj : Dev nD × Fin 7) :
    (bigSep Finset.univ fun cj : Dev nD × Fin 7 => (cellInv ER (exRd m ρ) (K cj) (kcell cj) : sProp 𝕄)) ⊢ cellInv ER (exRd m ρ) (K cj) (kcell cj) :=
  bigSep_elim (Finset.mem_univ cj)
omit [FloatOps F] in
theorem reached_at (cj : Dev nD × Fin 7) :
    (bigSep Finset.univ fun cj : Dev nD × Fin 7 => (reached ER (kcell cj) 0 : sProp 𝕄)) ⊢ reached ER (kcell cj) 0 :=
  bigSep_elim (Finset.mem_univ cj)

/-- What stays with device `c`: its positions, and the tokens of the duties it pays. -/
def linear (c : Dev nD) : sProp 𝕄 := iprop(positions c ∗ payToks c)

theorem ghost_intro (K : Dev nD × Fin 7 → ℕ) (c : Dev nD) : iprop(records m ρ K ∗ linear c) ⊢ G' m ρ c := by
  unfold records linear G' ghost invs marks
  iintro ⟨⟨#HI, #HR⟩, Hpos, Htok⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (c, 5)); iexact HI
    isplitr; · iapply (inv_at m ρ K (c, 6)); iexact HI
    isplitr; · iapply (inv_at m ρ K (peer 0 c, 0)); iexact HI
    isplitr; · iapply (inv_at m ρ K (peer 1 c, 0)); iexact HI
    isplitr; · iapply (inv_at m ρ K (peer 2 c, 0)); iexact HI
    isplitr; · iapply (inv_at m ρ K (peer 0 c, 4)); iexact HI
    isplitr; · iapply (inv_at m ρ K (peer 1 c, 5)); iexact HI
    iapply (inv_at m ρ K (peer 2 c, 6)); iexact HI
  isplitl [Hpos]; · iexact Hpos
  isplitr
  · isplitr; · iapply (reached_at (F := F) (peer 0 c, 0)); iexact HR
    isplitr; · iapply (reached_at (F := F) (peer 1 c, 0)); iexact HR
    isplitr; · iapply (reached_at (F := F) (peer 2 c, 0)); iexact HR
    isplitr; · iapply (reached_at (F := F) (peer 0 c, 4)); iexact HR
    isplitr; · iapply (reached_at (F := F) (peer 1 c, 5)); iexact HR
    isplitr; · iapply (reached_at (F := F) (peer 2 c, 6)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    iapply (reached_at (F := F) (c, 6)); iexact HR
  iexact Htok

omit [FloatOps F] in
/-- The tokens dealt around: duty `k` of a barrier cell, and the `k`-th receive cell's duty, go to peer `k`; each
    peer map is an involution, so summing over all devices each token is handed over exactly once. -/
theorem toks_around : (bigSep Finset.univ fun c : Dev nD => (toks c : sProp 𝕄)) ⊢ bigSep Finset.univ fun c : Dev nD => payToks c := by
  unfold toks payToks
  simp only [bigSep_sep']
  rw [bigSep_univ_equiv (peerEquiv 0) (fun c : Dev nD => (dutyTok ER (cell c .bar) 0 0 : sProp 𝕄)),
    bigSep_univ_equiv (peerEquiv 1) (fun c : Dev nD => (dutyTok ER (cell c .bar) 0 1 : sProp 𝕄)),
    bigSep_univ_equiv (peerEquiv 2) (fun c : Dev nD => (dutyTok ER (cell c .bar) 0 2 : sProp 𝕄)),
    bigSep_univ_equiv (peerEquiv 0) (fun c : Dev nD => (dutyTok ER (cell c (.recv 0)) 0 0 : sProp 𝕄)),
    bigSep_univ_equiv (peerEquiv 1) (fun c : Dev nD => (dutyTok ER (cell c (.recv 1)) 0 0 : sProp 𝕄)),
    bigSep_univ_equiv (peerEquiv 2) (fun c : Dev nD => (dutyTok ER (cell c (.recv 2)) 0 0 : sProp 𝕄))]
  iintro ⟨B0, B1, B2, S0, S1, S2, R0, R1, R2⟩
  isplitl [B0]; · iexact B0
  isplitl [B1]; · iexact B1
  isplitl [B2]; · iexact B2
  isplitl [R0]; · iexact R0
  isplitl [R1]; · iexact R1
  isplitl [R2]; · iexact R2
  isplitl [S0]; · iexact S0
  isplitl [S1]; · iexact S1
  iexact S2

omit [FloatOps F] in
theorem bigSep_with_persistent' {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun j => iprop(∃ κ : ℕ, cellInv ER (exRd m ρ) κ (kcell (c, j))))
          ∗ (bigSep Finset.univ fun j : Fin 7 => iprop(atPos ER (kcell (c, j)) 0 ∅ 0 ∗ reached ER (kcell (c, j)) 0)) ∗ toks c) : sProp 𝕄)
      ⊢ bigSep Finset.univ (G' m ρ) := by
  rw [bigSep_sep', bigSep_sep', ← bigSep_univ_prod (fun cj : Dev nD × Fin 7 => iprop(∃ κ : ℕ, cellInv ER (exRd m ρ) κ (kcell cj))),
    bigSep_congr (s := Finset.univ) (fun (c : Dev nD) _ => bigSep_sep' Finset.univ (fun j : Fin 7 => (atPos ER (kcell (c, j)) 0 ∅ 0 : sProp 𝕄)) (fun j => reached ER (kcell (c, j)) 0)),
    bigSep_sep', ← bigSep_univ_prod (fun cj : Dev nD × Fin 7 => (reached ER (kcell cj) 0 : sProp 𝕄))]
  iintro ⟨HI, ⟨Hat, #HR⟩, Htok⟩
  ihave HK := (BI.bigSep_exists_pi Finset.univ (fun (cj : Dev nD × Fin 7) (κ : ℕ) => (cellInv ER (exRd m ρ) κ (kcell cj) : sProp 𝕄))) $$ HI
  icases HK with ⟨%K, #HI⟩
  ihave Htk := (toks_around (F := F)) $$ Htok
  iapply (bigSep_with_persistent' (R := records m ρ K) fun c _ => ghost_intro m ρ K c)
  isplitr
  · unfold records; isplitl; · iexact HI
    iexact HR
  · iapply ((Entails.of_eq (bigSep_sep' Finset.univ (fun c : Dev nD => bigSep Finset.univ fun j : Fin 7 => (atPos ER (kcell (c, j)) 0 ∅ 0 : sProp 𝕄)) payToks).symm).trans
      (bigSep_mono fun c _ => show _ ⊢ linear c from Entails.of_eq (by unfold linear positions; rw [bigSep_fin7])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- What device `d` owes device `c`'s barrier cell on account of its `k`-th signal: a unit if `d` is peer `k` of `c`. -/
theorem owedB_bar (k : Fin 3) (d c : Dev nD) : owedB k d (cell c .bar) () = if d = peer k c then 1 else 0 := by
  show tallyAt (cell (peer k d) .bar) () 1 (cell c .bar) () = _
  rw [tallyAt_apply]
  by_cases h : d = peer k c
  · subst h; rw [peer_peer, if_pos ⟨rfl, rfl⟩, if_pos rfl]
  · rw [if_neg h, if_neg]
    rintro ⟨h1, -⟩
    exact h (by rw [(cell_eq_iff.mp h1).1, peer_peer])
omit [FloatOps F] in
theorem owedB_recv (k j : Fin 3) (d c : Dev nD) : owedB k d (cell c (.recv j)) () = 0 := by
  show tallyAt (cell (peer k d) .bar) () 1 (cell c (.recv j)) () = _
  rw [tallyAt_apply, if_neg]
  rintro ⟨h1, -⟩
  exact Role.noConfusion (cell_eq_iff.mp h1).2
omit [FloatOps F] in
theorem owedR_bar (k : Fin 3) (d c : Dev nD) : owedR k d (cell c .bar) () = 0 := by
  show tallyAt (cell (peer k d) (.recv k)) () N (cell c .bar) () = _
  rw [tallyAt_apply, if_neg]
  rintro ⟨h1, -⟩
  exact Role.noConfusion (cell_eq_iff.mp h1).2
omit [FloatOps F] in
/-- On account of its `k`-th copy: a block on `c`'s `k`-th receive cell if `d` is peer `k` of `c`, nothing on the others. -/
theorem owedR_recv (k j : Fin 3) (d c : Dev nD) : owedR k d (cell c (.recv j)) () = if k = j then (if d = peer j c then N else 0) else 0 := by
  show tallyAt (cell (peer k d) (.recv k)) () N (cell c (.recv j)) () = _
  rw [tallyAt_apply]
  by_cases hk : k = j
  · subst hk
    rw [if_pos rfl]
    by_cases h : d = peer k c
    · subst h; rw [peer_peer, if_pos ⟨rfl, rfl⟩, if_pos rfl]
    · rw [if_neg h, if_neg]
      rintro ⟨h1, -⟩
      exact h (by rw [(cell_eq_iff.mp h1).1, peer_peer])
  · rw [if_neg hk, if_neg]
    rintro ⟨h1, -⟩
    exact hk (Role.recv.inj (cell_eq_iff.mp h1).2).symm

omit [FloatOps F] in
theorem owed_bar (d c : Dev nD) : O₀ d (cell c .bar) ()
    = (if d = peer 2 c then 1 else 0) + (if d = peer 1 c then 1 else 0) + (if d = peer 0 c then 1 else 0) := by
  unfold O₀ O₁ O₂ O₃
  simp only [Pi.add_apply, Finsupp.add_apply]
  rw [owedR_bar, owedR_bar, owedR_bar, owedB_bar, owedB_bar, owedB_bar]
  simp only [Nat.zero_add]

omit [FloatOps F] in
theorem owed_recv (j : Fin 3) (d c : Dev nD) : O₀ d (cell c (.recv j)) () = if d = peer j c then N else 0 := by
  unfold O₀ O₁ O₂ O₃
  simp only [Pi.add_apply, Finsupp.add_apply]
  rw [owedB_recv, owedB_recv, owedB_recv, owedR_recv, owedR_recv, owedR_recv]
  fin_cases j <;> simp

omit [FloatOps F] in
/-- A barrier cell's launch credit: one unit from each of the three peers. -/
theorem launch_bar (c : Dev nD) :
    tallyOn (cell c .bar) (launchCredit (Pipeline.owing O₀) 0 (cell c .bar)) = (tallyAt (cell c .bar) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (peer 2 c) fun _ => 1, Finset.sum_ite_eq' Finset.univ (peer 1 c) fun _ => 1, Finset.sum_ite_eq' Finset.univ (peer 0 c) fun _ => 1,
    if_pos (Finset.mem_univ _), if_pos (Finset.mem_univ _), if_pos (Finset.mem_univ _)]

omit [FloatOps F] in
/-- The `j`-th receive cell's launch credit: one block, from peer `j`. -/
theorem launch_recv (j : Fin 3) (c : Dev nD) :
    tallyOn (cell c (.recv j)) (launchCredit (Pipeline.owing O₀) 0 (cell c (.recv j))) = (tallyAt (cell c (.recv j)) () N : CellTallies nD τ sig Unit) := by
  unfold tallyAt; refine congrArg _ (Finsupp.ext fun u => ?_); cases u
  rw [Pipeline.launchCredit_owing, Finsupp.single_eq_same, Finset.sum_congr rfl fun d _ => owed_recv j d c, Finset.sum_ite_eq' Finset.univ (peer j c) fun _ => N,
    if_pos (Finset.mem_univ _)]

omit [FloatOps F] in
theorem creds (c : Dev nD) : (Pipeline.launchCred O₀ c : sProp 𝕄) ⊢ credits c := by
  unfold Pipeline.launchCred credits
  refine (bigSep_subset (t := [roleSem .bar, roleSem (.recv 0), roleSem (.recv 1), roleSem (.recv 2)].toFinset) (Finset.subset_univ _)).trans ?_
  rw [bigSep_eq_bigSepL _ (by decide)]
  simp only [bigSepL_cons_cons, bigSepL_singleton]
  rw [launch_bar, launch_recv 0, launch_recv 1, launch_recv 2]
  exact Entails.refl _

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ scratch
  iintro ⟨Hr, Hz⟩
  isplitr; · iempintro
  isplitl [Hz]; · iexact Hz
  iexact Hr

/-- The pipeline's two staging semaphores sit at level 0, below everything a device owes at launch. -/
theorem waits (c : Dev nD) : (levAts L lv : sProp 𝕄) ⊢ Pipeline.cellsWaits cfgs (dats m ρ) () 0 c :=
  Pipeline.cellsWaits_intro cfgs (dats m ρ) () 0 c fun w s t =>
    mayWait_stage (F := F) c _ (by fin_cases w <;> fin_cases s <;> rfl) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters, given each device's
    body obligation: every weakly fair execution of @main — the four kernels handshaking pairwise on the runtime's
    barrier semaphore, then each copying its narrow block into its three peers' landing buffers — terminates, and every
    final state has each device's result array at the computed contents and the input array unchanged. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdealProof.run_main' depends on axioms: [propext, Classical.choice, Quot.sound] -/
#guard_msgs in #print axioms run_main

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run: the grid's one point writes the result window's block back, and the block is the whole
    array, so every element of the array is the element of `outAt` at the same index. -/
theorem finalA_out (c : Dev nD) : finalA m ρ c (1 : Fin 2) = outAt m ρ c := by
  show (dats m ρ 0 c).arrAt (1 : Fin 2) (t₀.val + 1) = _
  rw [Dat.arrAt_succ, flush0_1, if_pos rfl]
  funext i
  have hy : ((cfg0.win 1).blk t₀).view.emb i = i := by
    funext a; apply Fin.ext
    rw [View.emb_slice, Function.Embedding.trans_apply, View.emb_whole, Function.Embedding.refl_apply, Rect.emb_apply]
    show 0 * _ + 1 * (i a).val = (i a).val
    omega
  conv_lhs => rw [← hy, View.write_emb_of_mem _ _ (Finset.mem_univ _)]
  rfl

end Cert.KernelIdealProof

end
-- ==== Proof.Value.lean ====
/-
  The value of the four-device exchange at the ideal instance.

  Device `c` of the 2 × 2 mesh sits at (c / 2, c % 2) and holds the block X[c / 2, :, 256 · (c % 2) : + 256] of the
  whole input X : [2, 256, 512]. It sends that block (narrowed, which at the ideal instance changes nothing) to its
  three peers and stores, into the columns [256 · (c % 2), + 256) of its result, its own block plus the block of the
  peer across the first mesh axis, and into the other 256 columns the sum of the blocks of the two remaining peers.
  Peer 0 has the same column half and the other leading coordinate; peer 1 the same leading coordinate and the other
  column half; peer 2 the other of both. So at every (r, J) the result is X[c / 2, r, J] + X[1 - c / 2, r, J], which is
  X[0, r, J] + X[1, r, J]: the sum over the leading axis the one-device program computes.
-/
import proofs.«900318_g7700000000000319_dist_rsx_agy_m256_n256_v7x_xy2x2_bf16_1_alg».proof.Proof.KernelIdealSched
import proofs.«900318_g7700000000000319_dist_rsx_agy_m256_n256_v7x_xy2x2_bf16_1_alg».proof.Proof.Gen.ReferenceIdeal.Read
import Idealize.ShloMosaic.Lib.Layout
import Idealize.ShloMosaic.Lib.Pipeline.Value
import Idealize.ShloMosaic.Lib.Pipeline.FrameBody
import Idealize.ShloMosaic.Lib.ValueIdx
import Idealize.ShloMosaic.Lib.ValueLayout
import Idealize.ShloMosaic.PureOps.Ideal.Laws

noncomputable section

namespace Cert.ValueProof

open Cert.KernelIdeal Cert.KernelIdeal.Gen Cert.KernelIdealProof
open Idealize.ShloMosaic Idealize.ShloMosaic.TcCoe Idealize.SL.Sem
open Idealize.ShloMosaic.ValueIdx

/-! ## What a device sends, at an index -/

/-- The narrowed block at (p, q) is the block at (0, p, q): the two reshapes keep the position and narrowing is the identity. -/
theorem pay1_apply (v : Vec Ideal S1x256x256 .f32) (p q : Fin 256) :
    k0_pay1 (F := Ideal) v (ix2 p q) = v (ix3 (0 : Fin 1) p q) := by
  unfold k0_pay1
  refine (congrFun (shapeCast_self _ _) (ix2 p q)).trans ?_
  refine (truncf_apply (φ := .f32) (ψ := .bf16) _ bitsLt_bf16_f32 (ix2 p q)).trans ?_
  exact shapeCast_1ab_ab_apply v _ p q

/-- The two sums, at an index. -/
theorem pay2_apply (a b : Vec Ideal S256x256 .bf16) (j : S256x256.Idx) :
    k0_pay2 (F := Ideal) a b j = (show EReal from a j) + (show EReal from b j) := rfl
theorem pay3_apply (a b : Vec Ideal S256x256 .bf16) (j : S256x256.Idx) :
    k0_pay3 (F := Ideal) a b j = (show EReal from a j) + (show EReal from b j) := rfl

/-! ## Which block of the whole input a device holds -/

/-- On the 2 × 2 mesh device `d` has coordinates (d / 2, d % 2): the block coordinate along the leading axis (cut by
    mesh axis 0), along the rows (not cut) and along the columns (cut by mesh axis 1). -/
theorem meshLin_lead (d : Dev nD) : Layout.meshLin [2, 2] d.val [0] = d.val / 2 := by revert d; decide
theorem meshLin_rows (d : Dev nD) : Layout.meshLin [2, 2] d.val [] = 0 := rfl
theorem meshLin_cols (d : Dev nD) : Layout.meshLin [2, 2] d.val [1] = d.val % 2 := by revert d; decide

section Block
variable (m : (ℓ : Loc Cert.KernelIdeal.nD Cert.KernelIdeal.τ Cert.KernelIdeal.sig) → Buf (Elt Ideal) ℓ) (ρ : Dev Cert.KernelIdeal.nD → PrngReg)

/-- The staging buffer holds the device's argument array, read whole. -/
theorem xstg_eq (c : Dev nD) : xstg (F := Ideal) m ρ c = m ((c.tc : Thread nD τ).loc main_arg0) := by
  unfold xstg
  exact Memref.read_access_unit_zero (Elt Ideal) main_arg0 (funext fun a => Nat.zero_mul _) _ _

variable (X : (⟨Cert.ReferenceIdeal.S2x256x512, .f32⟩ : BufTy).Contents (Elt Ideal))
  (hblk : ∀ c : Dev Cert.KernelIdeal.nD, m ((c.tc : Thread Cert.KernelIdeal.nD Cert.KernelIdeal.τ).loc Cert.KernelIdeal.main_arg0)
          = Layout.blockN ⟨3, ![1, 256, 256]⟩ ⟨3, ![2, 256, 512]⟩ (Layout.meshBlock [2, 2] ![[0], [], [1]] c) X)
include hblk

/-- What device `d` sends, at (p, q), is the whole input at (d / 2, p, 256 · (d % 2) + q): at any index `k` with those
    coordinates. -/
theorem sent_apply (d : Dev nD) (p q : Fin 256) (k : Cert.ReferenceIdeal.S2x256x512.Idx)
    (h0 : (k 0).val = d.val / 2) (h1 : (k 1).val = p.val) (h2 : (k 2).val = 256 * (d.val % 2) + q.val) :
    sent (F := Ideal) m ρ d (ix2 p q) = X k := by
  unfold sent
  rw [pay1_apply, xstg_eq, hblk d]
  refine (Layout.blockN_apply _ X _ _).trans (congrArg X (funext fun a => Fin.ext ?_))
  rw [Layout.TilesN.idx_val]
  match a with
  | ⟨0, _⟩ =>
    show Layout.meshLin [2, 2] d.val [0] * 1 + 0 = (k 0).val
    rw [meshLin_lead, h0]; omega
  | ⟨1, _⟩ =>
    show Layout.meshLin [2, 2] d.val [] * 256 + p.val = (k 1).val
    rw [meshLin_rows, h1]; omega
  | ⟨2, _⟩ =>
    show Layout.meshLin [2, 2] d.val [1] * 256 + q.val = (k 2).val
    rw [meshLin_cols, h2]; omega

/-- The same, with the index of the whole input written as the reference writes it: the result index `i` under the
    leading coordinate `k`. -/
theorem sent_at (d : Dev nD) (p q : Fin 256) (i : S256x512.Idx) (k : Fin 2)
    (h0 : k.val = d.val / 2) (h1 : (i 0).val = p.val) (h2 : (i 1).val = 256 * (d.val % 2) + q.val) :
    sent (F := Ideal) m ρ d (ix2 p q) = X (Cert.ReferenceIdeal.Read.idx_main_v0 i k) :=
  sent_apply m ρ X hblk d p q _ h0 h1 h2

end Block

/-! ## The peers' mesh coordinates -/

theorem peer0_val (c : Dev nD) : (peer 0 c).val = (c.val + 2) % 4 := rfl
theorem peer1_val (c : Dev nD) : (peer 1 c).val = c.val + 1 - 2 * (c.val % 2) := rfl
theorem peer2_val (c : Dev nD) : (peer 2 c).val = 3 - c.val := rfl

/-- A device's leading mesh coordinate, and the other one. -/
def lead (c : Dev nD) : Fin 2 := ⟨c.val / 2, by have h : c.val < 4 := c.isLt; omega⟩
def other (c : Dev nD) : Fin 2 := ⟨1 - c.val / 2, by omega⟩

/-- Summing over the own leading coordinate and the other one is summing over both. -/
theorem lead_add_other (c : Dev nD) (f : Fin 2 → EReal) : f (lead c) + f (other c) = f 0 + f 1 := by
  fin_cases c
  · rfl
  · rfl
  · exact add_comm _ _
  · exact add_comm _ _

/-! ## The result at an index -/

section Out
variable (m : (ℓ : Loc Cert.KernelIdeal.nD Cert.KernelIdeal.τ Cert.KernelIdeal.sig) → Buf (Elt Ideal) ℓ) (ρ : Dev Cert.KernelIdeal.nD → PrngReg)
  (X : (⟨Cert.ReferenceIdeal.S2x256x512, .f32⟩ : BufTy).Contents (Elt Ideal))
  (hblk : ∀ c : Dev Cert.KernelIdeal.nD, m ((c.tc : Thread Cert.KernelIdeal.nD Cert.KernelIdeal.τ).loc Cert.KernelIdeal.main_arg0)
          = Layout.blockN ⟨3, ![1, 256, 256]⟩ ⟨3, ![2, 256, 512]⟩ (Layout.meshBlock [2, 2] ![[0], [], [1]] c) X)
include hblk

open Cert.ReferenceIdeal.Read (idx_main_v0)

/-- Under the later store (the other column half) the result is the sum of what peers 1 and 2 sent: the whole input
    at the result's index under the own leading coordinate and under the other. -/
theorem outAt_of_mem_r2 (c : Dev nD) (i : S256x512.Idx) (hi : i ∈ (r2 c).set) :
    (show EReal from outAt (F := Ideal) m ρ c i)
      = (show EReal from X (idx_main_v0 i (lead c))) + (show EReal from X (idx_main_v0 i (other c))) := by
  have hc : c.val < 4 := c.isLt
  obtain ⟨x, hx⟩ := (r2 c).exists_idx_of_mem hi
  obtain ⟨p, q, rfl⟩ : ∃ (p q : Fin 256), x = ix2 p q := ⟨x 0, x 1, eq_ix2 x⟩
  have e0 : (i 0).val = p.val := by
    rw [← hx]; show k0_off2 c 0 + 1 * p.val = p.val; rw [Gen.k0_off2_eq]; show 0 + 1 * p.val = _; omega
  have e1 : (i 1).val = 256 - 256 * (c.val % 2) + q.val := by
    rw [← hx]; show k0_off2 c 1 + 1 * q.val = _; rw [Gen.k0_off2_eq]; show (256 - 256 * (c.val % 2)) + 1 * q.val = _; omega
  have hv : outAt (F := Ideal) m ρ c i = half2 (F := Ideal) m ρ c (ix2 p q) := by
    rw [← hx]; exact View.canon_cons_emb (Val := Elt Ideal) (e := EltTy.bf16) (r2 c) (half2 m ρ c) _ (ix2 p q)
  rw [hv]
  unfold half2
  rw [pay3_apply,
    sent_at m ρ X hblk (peer 1 c) p q i (lead c) (by show c.val / 2 = _; rw [peer1_val]; omega) e0 (by rw [e1, peer1_val]; omega),
    sent_at m ρ X hblk (peer 2 c) p q i (other c) (by show 1 - c.val / 2 = _; rw [peer2_val]; omega) e0 (by rw [e1, peer2_val]; omega)]

omit hblk in
/-- The two column halves cover the result: an index outside the later store's rectangle lies in the earlier one's. -/
theorem mem_r1_of_not_mem_r2 (c : Dev nD) (i : S256x512.Idx) (h : i ∉ (r2 c).set) : i ∈ (r1 c).set := by
  have h0 : (i 0).val < 256 := idx2_lt0 i
  have h1 : (i 1).val < 512 := idx2_lt1 i
  rw [Rect.mem_set_unit, Gen.k0_off2_eq, Fin.forall_fin_two] at h
  rw [Rect.mem_set_unit, Gen.k0_off1_eq, Fin.forall_fin_two]
  simp only [Matrix.cons_val_zero, Matrix.cons_val_one, Matrix.head_cons] at h ⊢
  omega

/-- Off it, under the earlier store (the own column half), the result is what the device itself sent plus what peer 0
    sent: again the whole input at the result's index under the own leading coordinate and under the other. -/
theorem outAt_of_not_mem_r2 (c : Dev nD) (i : S256x512.Idx) (hi : i ∉ (r2 c).set) :
    (show EReal from outAt (F := Ideal) m ρ c i)
      = (show EReal from X (idx_main_v0 i (lead c))) + (show EReal from X (idx_main_v0 i (other c))) := by
  have hc : c.val < 4 := c.isLt
  obtain ⟨x, hx⟩ := (r1 c).exists_idx_of_mem (mem_r1_of_not_mem_r2 c i hi)
  obtain ⟨p, q, rfl⟩ : ∃ (p q : Fin 256), x = ix2 p q := ⟨x 0, x 1, eq_ix2 x⟩
  have e0 : (i 0).val = p.val := by
    rw [← hx]; show k0_off1 c 0 + 1 * p.val = p.val; rw [Gen.k0_off1_eq]; show 0 + 1 * p.val = _; omega
  have e1 : (i 1).val = 256 * (c.val % 2) + q.val := by
    rw [← hx]; show k0_off1 c 1 + 1 * q.val = _; rw [Gen.k0_off1_eq]; show 256 * (c.val % 2) + 1 * q.val = _; omega
  have hv : outAt (F := Ideal) m ρ c i = half1 (F := Ideal) m ρ c (ix2 p q) := by
    refine (View.canon_cons_of_not_mem (Val := Elt Ideal) (e := EltTy.bf16) ⟨r2 c, half2 m ρ c⟩ _ hi).trans ?_
    rw [← hx]; exact View.canon_cons_emb (Val := Elt Ideal) (e := EltTy.bf16) (r1 c) (half1 m ρ c) _ (ix2 p q)
  rw [hv]
  unfold half1
  rw [pay2_apply,
    sent_at m ρ X hblk c p q i (lead c) rfl e0 e1,
    sent_at m ρ X hblk (peer 0 c) p q i (other c) (by show 1 - c.val / 2 = _; rw [peer0_val]; omega) e0 (by rw [e1, peer0_val]; omega)]

/-- So at every index the result is the sum of the whole input over its leading axis. -/
theorem outAt_apply (c : Dev nD) (i : S256x512.Idx) :
    (show EReal from outAt (F := Ideal) m ρ c i)
      = (show EReal from X (idx_main_v0 i 0)) + (show EReal from X (idx_main_v0 i 1)) := by
  have h := lead_add_other c fun k => X (idx_main_v0 i k)
  by_cases hi : i ∈ (r2 c).set
  · exact (outAt_of_mem_r2 m ρ X hblk c i hi).trans h
  · exact (outAt_of_not_mem_r2 m ρ X hblk c i hi).trans h

end Out

/-! ## The reference at an index, and the two together -/

open Cert.ReferenceIdeal.Read (idx_main_v0) in
/-- The one-device program sums the whole input over its leading axis, from zero, and narrows, which changes nothing. -/
theorem ref_apply (X : (⟨Cert.ReferenceIdeal.S2x256x512, .f32⟩ : BufTy).Contents (Elt Ideal)) (i : S256x512.Idx) :
    (show EReal from Cert.ReferenceIdeal.Read.val_main_v1 (F := Ideal) X i)
      = (show EReal from X (idx_main_v0 i 0)) + (show EReal from X (idx_main_v0 i 1)) := by
  rw [Cert.ReferenceIdeal.Read.val_main_v1_apply, Ideal.truncf_def, Cert.ReferenceIdeal.Read.val_main_v0_apply,
    Cert.ReferenceIdeal.Read.val_main_cst_apply, Ideal.ofBits_def, Ideal.ofBits_zero_f32, Fin.sum_univ_two, zero_add]

open Cert.KernelIdealProof in
/-- Every device's result is the reference's. -/
theorem outAt_eq_ref (m : (ℓ : Loc Cert.KernelIdeal.nD Cert.KernelIdeal.τ Cert.KernelIdeal.sig) → Buf (Elt Ideal) ℓ) (ρ : Dev Cert.KernelIdeal.nD → PrngReg)
    (X : (⟨Cert.ReferenceIdeal.S2x256x512, .f32⟩ : BufTy).Contents (Elt Ideal))
    (hblk : ∀ c : Dev Cert.KernelIdeal.nD, m ((c.tc : Thread Cert.KernelIdeal.nD Cert.KernelIdeal.τ).loc Cert.KernelIdeal.main_arg0)
        = Layout.blockN ⟨3, ![1, 256, 256]⟩ ⟨3, ![2, 256, 512]⟩ (Layout.meshBlock [2, 2] ![[0], [], [1]] c) X)
    (c : Dev Cert.KernelIdeal.nD) :
    outAt (F := Ideal) m ρ c = Cert.ReferenceIdeal.Read.val_main_v1 (F := Ideal) X :=
  funext fun i => (outAt_apply m ρ X hblk c i).trans (ref_apply X i).symm

/-- info: 'Cert.ValueProof.outAt_eq_ref' depends on axioms: [propext, Classical.choice, Quot.sound] -/
#guard_msgs in #print axioms outAt_eq_ref

end Cert.ValueProof

end
-- ==== Proof.lean ====
/-
  Four devices on a 2 × 2 mesh each hold one [1, 256, 256] block of an f32[2, 256, 512] array: device c the block at
  leading index c / 2 and columns [256·(c % 2), +256). The kernel leaves on EVERY device the whole bf16[256, 512] sum of
  the array over its leading axis; the reference computes that sum on one device.

  Each device casts its block to the narrow type, meets its three peers on the barrier semaphore (a signal to each,
  a wait for three), copies the cast block into a landing buffer of each peer, and then adds: its own block and the
  one received from the peer with the other leading index make the own column half; the two blocks received from the
  peers with the other columns make the other half. So the result at row r, column J is the array at (c / 2, r, J) plus
  the array at (1 - c / 2, r, J), which is the reference's two-term sum up to the order of the terms; addition of
  extended reals is commutative, and a change of float format is the identity at the ideal instance.

  The frames: every device's run terminates because a wait is only ever made at a level below everything the waiter
  still owes (the barrier below the receive cells), nothing faults, and the input blocks are never written. The same
  text proves the word-level program's frame, the two printed programs being one text.
-/
import proofs.«900318_g7700000000000319_dist_rsx_agy_m256_n256_v7x_xy2x2_bf16_1_alg».proof.Defs
import proofs.«900318_g7700000000000319_dist_rsx_agy_m256_n256_v7x_xy2x2_bf16_1_alg».proof.Proof.Gen.Kernel
import proofs.«900318_g7700000000000319_dist_rsx_agy_m256_n256_v7x_xy2x2_bf16_1_alg».proof.Proof.Gen.KernelIdeal
import proofs.«900318_g7700000000000319_dist_rsx_agy_m256_n256_v7x_xy2x2_bf16_1_alg».proof.Proof.Gen.ReferenceIdeal
import proofs.«900318_g7700000000000319_dist_rsx_agy_m256_n256_v7x_xy2x2_bf16_1_alg».proof.Proof.Gen.ReferenceIdeal.Run
import proofs.«900318_g7700000000000319_dist_rsx_agy_m256_n256_v7x_xy2x2_bf16_1_alg».proof.Proof.Gen.ReferenceIdeal.Read
import proofs.«900318_g7700000000000319_dist_rsx_agy_m256_n256_v7x_xy2x2_bf16_1_alg».proof.Proof.Gen.Pre_finite_inputs_Kernel
import proofs.«900318_g7700000000000319_dist_rsx_agy_m256_n256_v7x_xy2x2_bf16_1_alg».proof.Proof.Gen.Pre_finite_inputs_ReferenceIdeal
import proofs.«900318_g7700000000000319_dist_rsx_agy_m256_n256_v7x_xy2x2_bf16_1_alg».proof.Proof.KernelBody
import proofs.«900318_g7700000000000319_dist_rsx_agy_m256_n256_v7x_xy2x2_bf16_1_alg».proof.Proof.KernelLaunch
import proofs.«900318_g7700000000000319_dist_rsx_agy_m256_n256_v7x_xy2x2_bf16_1_alg».proof.Proof.KernelIdealBody
import proofs.«900318_g7700000000000319_dist_rsx_agy_m256_n256_v7x_xy2x2_bf16_1_alg».proof.Proof.KernelIdealLaunch
import proofs.«900318_g7700000000000319_dist_rsx_agy_m256_n256_v7x_xy2x2_bf16_1_alg».proof.Proof.Value

noncomputable section

namespace Cert.Proof

open Idealize.ShloMosaic Idealize.SL.Sem

/-- The word-level program runs to the end on all four devices and leaves every input block as it was. -/
theorem frame_k : Cert.frame_Kernel := fun m ρ _ =>
  (θ_run (Cert.Kernel.defs (F := Bits)) _ _).mono
    (fun _ h c => (h c (0 : Fin 2)).trans (Cert.KernelProof.finalA_x m ρ c))
    (Cert.KernelProof.run_main m ρ (Cert.KernelProof.body_obligation m ρ))

/-- So does the idealized program. -/
theorem frame_ki : Cert.frame_KernelIdeal := fun m ρ _ =>
  (θ_run (Cert.KernelIdeal.defs (F := Ideal)) _ _).mono
    (fun _ h c => (h c (0 : Fin 2)).trans (Cert.KernelIdealProof.finalA_x m ρ c))
    (Cert.KernelIdealProof.run_main m ρ (Cert.KernelIdealProof.body_obligation m ρ))

/-- The reference is three host operations; its run is the generated one with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Every device's result array ends at the reference's sum of the whole array its blocks are cut from. -/
theorem algebraic : Cert.algebraic_KernelIdeal_ReferenceIdeal := by
  intro m ρ m' ρ' _ hagree
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · exact (θ_run (Cert.KernelIdeal.defs (F := Ideal)) _ _).mono
      (fun _ h c => ⟨((h c (1 : Fin 2)).trans (Cert.KernelIdealProof.finalA_out m ρ c)).trans
          (Cert.ValueProof.outAt_eq_ref m ρ _ hagree c),
        (h c (0 : Fin 2)).trans (Cert.KernelIdealProof.finalA_x m ρ c)⟩)
      (Cert.KernelIdealProof.run_main m ρ (Cert.KernelIdealProof.body_obligation m ρ))
  · exact (θ_run Cert.ReferenceIdeal.defs _ _).mono
      (fun _ h => ⟨(h 0).1.trans (Cert.ReferenceIdeal.Read.val_main_v1_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
